-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x512 : Shape := ⟨2, ![2048, 512]⟩
abbrev S2048x1 : Shape := ⟨2, ![2048, 1]⟩
abbrev S1536x50000 : Shape := ⟨2, ![1536, 50000]⟩
abbrev S1536 : Shape := ⟨1, ![1536]⟩
abbrev S1536x512 : Shape := ⟨2, ![1536, 512]⟩
abbrev S512x512 : Shape := ⟨2, ![512, 512]⟩
abbrev S512 : Shape := ⟨1, ![512]⟩
abbrev S50000x512 : Shape := ⟨2, ![50000, 512]⟩
abbrev S50000 : Shape := ⟨1, ![50000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S1536x50000 : S_.BroadcastsInDim S1536x50000 (![] : Fin 0 → Fin S1536x50000.rank)
  reducesTo_S1536x50000_S_d0_1 : S1536x50000.ReducesTo [0, 1] S_
  bcast_S_S1536 : S_.BroadcastsInDim S1536 (![] : Fin 0 → Fin S1536.rank)
  reducesTo_S1536_S_d0 : S1536.ReducesTo [0] S_
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50000x512 : S_.BroadcastsInDim S50000x512 (![] : Fin 0 → Fin S50000x512.rank)
  reducesTo_S50000x512_S_d0_1 : S50000x512.ReducesTo [0, 1] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg15 : FVec F S50000x512 .f32) (main_arg16 : FVec F S50000 .f32) (main_v63 : IVec S_ 1) (main_v67 : IVec S_ 1) : IVec S_ 1 :=
  let main_v68 : IVec S_ 1 := andi main_v63 main_v67
  let main_v69 : FVec F S50000x512 .f32 := Host.absf main_arg15
  let main_cst_26 : FVec F S_ .f32 := constant S_ .f32 0x7F800000#32
  let main_v70 : FVec F S50000x512 .f32 := broadcastInDim S50000x512 ![] bcast_S_S50000x512 main_cst_26
  let main_v71 : IVec S50000x512 1 := cmpf .olt main_v69 main_v70
  let main_c_27 : IVec S_ 1 := constantI S_ 1 1#1
  let main_v72 : IVec S_ 1 := (fun x v => Host.reduce IntOp.andi x v reducesTo_S50000x512_S_d0_1 h_S_) main_v71 main_c_27
  let main_v73 : IVec S_ 1 := andi main_v68 main_v72
  let main_v74 : FVec F S50000 .f32 := Host.absf main_arg16
  let main_cst_28 : FVec F S_ .f32 := constant S_ .f32 0x7F800000#32
  let main_v75 : FVec F S50000 .f32 := broadcastInDim S50000 ![] bcast_S_S50000 main_cst_28
  let main_v76 : IVec S50000 1 := cmpf .olt main_v74 main_v75
  let main_c_29 : IVec S_ 1 := constantI S_ 1 1#1
  let main_v77 : IVec S_ 1 := (fun x v => Host.reduce IntOp.andi x v reducesTo_S50000_S_d0 h_S_) main_v76 main_c_29
  let main_v78 : IVec S_ 1 := andi main_v73 main_v77
  main_v78

def fn_part3 {F : FTy → Type} [FloatOps F] (main_arg12 : FVec F S1536 .f32) (main_arg13 : FVec F S512x512 .f32) (main_arg14 : FVec F S512 .f32) (main_arg15 : FVec F S50000x512 .f32) (main_arg16 : FVec F S50000 .f32) (main_v48 : IVec S_ 1) (main_v49 : FVec F S1536x512 .f32) (main_v50 : FVec F S1536x512 .f32) : IVec S_ 1 :=
  let main_v51 : IVec S1536x512 1 := cmpf .olt main_v49 main_v50
  let main_c_19 : IVec S_ 1 := constantI S_ 1 1#1
  let main_v52 : IVec S_ 1 := (fun x v => Host.reduce IntOp.andi x v reducesTo_S1536x512_S_d0_1 h_S_) main_v51 main_c_19
  let main_v53 : IVec S_ 1 := andi main_v48 main_v52
  let main_v54 : FVec F S1536 .f32 := Host.absf main_arg12
  let main_cst_20 : FVec F S_ .f32 := constant S_ .f32 0x7F800000#32
  let main_v55 : FVec F S1536 .f32 := broadcastInDim S1536 ![] bcast_S_S1536 main_cst_20
  let main_v56 : IVec S1536 1 := cmpf .olt main_v54 main_v55
  let main_c_21 : IVec S_ 1 := constantI S_ 1 1#1
  let main_v57 : IVec S_ 1 := (fun x v => Host.reduce IntOp.andi x v reducesTo_S1536_S_d0 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_v63 main_v67

def fn_part2 {F : FTy → Type} [FloatOps F] (main_arg8 : FVec F S1536 .f32) (main_arg9 : FVec F S1536x512 .f32) (main_arg10 : FVec F S1536 .f32) (main_arg11 : FVec F S1536x512 .f32) (main_arg12 : FVec F S1536 .f32) (main_arg13 : FVec F S512x512 .f32) (main_arg14 : FVec F S512 .f32) (main_arg15 : FVec F S50000x512 .f32) (main_arg16 : FVec F S50000 .f32) (main_v33 : IVec S_ 1) : IVec S_ 1 :=
  let main_v34 : FVec F S1536 .f32 := Host.absf main_arg8
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536x512 .f32 := Host.absf main_arg9
  let main_cst_14 : FVec F S_ .f32 := constant S_ .f32 0x7F800000#32
  let main_v40 : FVec F S1536x512 .f32 := broadcastInDim S1536x512 ![] bcast_S_S1536x512 main_cst_14
  let main_v41 : IVec S1536x512 1 := cmpf .olt main_v39 main_v40
  let main_c_15 : IVec S_ 1 := constantI S_ 1 1#1
  let main_v42 : IVec S_ 1 := (fun x v => Host.reduce IntOp.andi x v reducesTo_S1536x512_S_d0_1 h_S_) main_v41 main_c_15
  let main_v43 : IVec S_ 1 := andi main_v38 main_v42
  let main_v44 : FVec F S1536 .f32 := Host.absf main_arg10
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536x512 .f32 := Host.absf main_arg11
  let main_cst_18 : FVec F S_ .f32 := constant S_ .f32 0x7F800000#32
  let main_v50 : FVec F S1536x512 .f32 := broadcastInDim S1536x512 ![] bcast_S_S1536x512 main_cst_18
  fn_part3 (F := F) main_arg12 main_arg13 main_arg14 main_arg15 main_arg16 main_v48 main_v49 main_v50

def fn_part1 {F : FTy → Type} [FloatOps F] (main_arg5 : FVec F S1536x50000 .f32) (main_arg6 : FVec F S1536 .f32) (main_arg7 : FVec F S1536x512 .f32) (main_arg8 : FVec F S1536 .f32) (main_arg9 : FVec F S1536x512 .f32) (main_arg10 : FVec F S1536 .f32) (main_arg11 : FVec F S1536x512 .f32) (main_arg12 : FVec F S1536 .f32) (main_arg13 : FVec F S512x512 .f32) (main_arg14 : FVec F S512 .f32) (main_arg15 : FVec F S50000x512 .f32) (main_arg16 : FVec F S50000 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S1536x50000 .f32 := Host.absf main_arg5
  let main_cst_6 : FVec F S_ .f32 := constant S_ .f32 0x7F800000#32
  let main_v20 : FVec F S1536x50000 .f32 := broadcastInDim S1536x50000 ![] bcast_S_S1536x50000 main_cst_6
  let main_v21 : IVec S1536x50000 1 := cmpf .olt main_v19 main_v20
  let main_c_7 : IVec S_ 1 := constantI S_ 1 1#1
  let main_v22 : IVec S_ 1 := (fun x v => Host.reduce IntOp.andi x v reducesTo_S1536x50000_S_d0_1 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536x512 .f32 := Host.absf main_arg7
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S2048 32) (main_arg1 : FVec F S2048x512 .f32) (main_arg2 : FVec F S2048x1 .f32) (main_arg3 : FVec F S2048x512 .f32) (main_arg4 : FVec F S2048x1 .f32) (main_arg5 : FVec F S1536x50000 .f32) (main_arg6 : FVec F S1536 .f32) (main_arg7 : FVec F S1536x512 .f32) (main_arg8 : FVec F S1536 .f32) (main_arg9 : FVec F S1536x512 .f32) (main_arg10 : FVec F S1536 .f32) (main_arg11 : FVec F S1536x512 .f32) (main_arg12 : FVec F S1536 .f32) (main_arg13 : FVec F S512x512 .f32) (main_arg14 : FVec F S512 .f32) (main_arg15 : FVec F S50000x512 .f32) (main_arg16 : FVec F S50000 .f32) : IVec S_ 1 :=
  let main_v0 : FVec F S2048x512 .f32 := Host.absf main_arg1
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x1 .f32 := Host.absf main_arg2
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x1 .f32 := Host.absf main_arg4
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S2048 : Shape := ⟨1, ![2048]⟩
abbrev S2048x512 : Shape := ⟨2, ![2048, 512]⟩
abbrev S2048x1 : Shape := ⟨2, ![2048, 1]⟩
abbrev S1536x50000 : Shape := ⟨2, ![1536, 50000]⟩
abbrev S1536 : Shape := ⟨1, ![1536]⟩
abbrev S1536x512 : Shape := ⟨2, ![1536, 512]⟩
abbrev S512x512 : Shape := ⟨2, ![512, 512]⟩
abbrev S512 : Shape := ⟨1, ![512]⟩
abbrev S50000x512 : Shape := ⟨2, ![50000, 512]⟩
abbrev S50000 : Shape := ⟨1, ![50000]⟩
abbrev S_ : Shape := ⟨0, ![]⟩
abbrev S1536x2048 : Shape := ⟨2, ![1536, 2048]⟩
abbrev S2048x1536 : Shape := ⟨2, ![2048, 1536]⟩
abbrev S1x1536 : Shape := ⟨2, ![1, 1536]⟩
abbrev S1x512 : Shape := ⟨2, ![1, 512]⟩
abbrev S256x512 : Shape := ⟨2, ![256, 512]⟩
abbrev S256x1 : Shape := ⟨2, ![256, 1]⟩
abbrev S256x1536 : Shape := ⟨2, ![256, 1536]⟩
abbrev S51200x512 : Shape := ⟨2, ![51200, 512]⟩
abbrev S51200 : Shape := ⟨1, ![51200]⟩
abbrev S1x51200 : Shape := ⟨2, ![1, 51200]⟩
abbrev S2048x51200 : Shape := ⟨2, ![2048, 51200]⟩
abbrev S1024x512 : Shape := ⟨2, ![1024, 512]⟩
abbrev S2560x512 : Shape := ⟨2, ![2560, 512]⟩
abbrev S1x2560 : Shape := ⟨2, ![1, 2560]⟩
abbrev S1024x2560 : Shape := ⟨2, ![1024, 2560]⟩
abbrev S2048x50000 : Shape := ⟨2, ![2048, 50000]⟩

abbrev nBuf : Space → Nat
  | .hbm => 47
  | .vmem => 30
  | .smem => 0
  | _ => 0

abbrev bufTy : (tb : Table) → Fin (tcTables nBuf tb) → BufTy
  | .hbm, ⟨0, _⟩ => ⟨S2048, .i32⟩
  | .hbm, ⟨1, _⟩ => ⟨S2048x512, .f32⟩
  | .hbm, ⟨2, _⟩ => ⟨S2048x1, .f32⟩
  | .hbm, ⟨3, _⟩ => ⟨S2048x512, .f32⟩
  | .hbm, ⟨4, _⟩ => ⟨S2048x1, .f32⟩
  | .hbm, ⟨5, _⟩ => ⟨S1536x50000, .f32⟩
  | .hbm, ⟨6, _⟩ => ⟨S1536, .f32⟩
  | .hbm, ⟨7, _⟩ => ⟨S1536x512, .f32⟩
  | .hbm, ⟨8, _⟩ => ⟨S1536, .f32⟩
  | .hbm, ⟨9, _⟩ => ⟨S1536x512, .f32⟩
  | .hbm, ⟨10, _⟩ => ⟨S1536, .f32⟩
  | .hbm, ⟨11, _⟩ => ⟨S1536x512, .f32⟩
  | .hbm, ⟨12, _⟩ => ⟨S1536, .f32⟩
  | .hbm, ⟨13, _⟩ => ⟨S512x512, .f32⟩
  | .hbm, ⟨14, _⟩ => ⟨S512, .f32⟩
  | .hbm, ⟨15, _⟩ => ⟨S50000x512, .f32⟩
  | .hbm, ⟨16, _⟩ => ⟨S50000, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S1536x2048, .f32⟩
  | .hbm, ⟨26, _⟩ => ⟨S2048x1536, .f32⟩
  | .hbm, ⟨27, _⟩ => ⟨S1x1536, .f32⟩
  | .hbm, ⟨28, _⟩ => ⟨S2048x1536, .f32⟩
  | .hbm, ⟨29, _⟩ => ⟨S2048x1536, .f32⟩
  | .hbm, ⟨30, _⟩ => ⟨S1x1536, .f32⟩
  | .hbm, ⟨31, _⟩ => ⟨S1x1536, .f32⟩
  | .hbm, ⟨32, _⟩ => ⟨S1x1536, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .bf16⟩
  | .hbm, ⟨37, _⟩ => ⟨S_, .i32⟩
  | .hbm, ⟨38, _⟩ => ⟨S_, .f32⟩
  | .hbm, ⟨39, _⟩ => ⟨S51200x512, .f32⟩
  | .hbm, ⟨40, _⟩ => ⟨S51200x512, .bf16⟩
  | .hbm, ⟨41, _⟩ => ⟨S_, .i32⟩
  | .hbm, ⟨42, _⟩ => ⟨S_, .f32⟩
  | .hbm, ⟨43, _⟩ => ⟨S51200, .f32⟩
  | .hbm, ⟨44, _⟩ => ⟨S1x51200, .f32⟩
  | .hbm, ⟨45, _⟩ => ⟨S2048x51200, .f32⟩
  | .hbm, ⟨46, _⟩ => ⟨S2048x50000, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S256x1, .f32⟩
  | .local _ .vmem, ⟨4, _⟩ => ⟨S256x512, .f32⟩
  | .local _ .vmem, ⟨5, _⟩ => ⟨S256x512, .f32⟩
  | .local _ .vmem, ⟨6, _⟩ => ⟨S256x1, .f32⟩
  | .local _ .vmem, ⟨7, _⟩ => ⟨S256x1, .f32⟩
  | .local _ .vmem, ⟨8, _⟩ => ⟨S256x1536, .f32⟩
  | .local _ .vmem, ⟨9, _⟩ => ⟨S256x1536, .f32⟩
  | .local _ .vmem, ⟨10, _⟩ => ⟨S1536x512, .f32⟩
  | .local _ .vmem, ⟨11, _⟩ => ⟨S1x1536, .f32⟩
  | .local _ .vmem, ⟨12, _⟩ => ⟨S1536x512, .f32⟩
  | .local _ .vmem, ⟨13, _⟩ => ⟨S1x1536, .f32⟩
  | .local _ .vmem, ⟨14, _⟩ => ⟨S1536x512, .f32⟩
  | .local _ .vmem, ⟨15, _⟩ => ⟨S1x1536, .f32⟩
  | .local _ .vmem, ⟨16, _⟩ => ⟨S512x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S1024x512, .bf16⟩
  | .local _ .vmem, ⟨23, _⟩ => ⟨S1024x512, .bf16⟩
  | .local _ .vmem, ⟨24, _⟩ => ⟨S2560x512, .bf16⟩
  | .local _ .vmem, ⟨25, _⟩ => ⟨S2560x512, .bf16⟩
  | .local _ .vmem, ⟨26, _⟩ => ⟨S1x2560, .f32⟩
  | .local _ .vmem, ⟨27, _⟩ => ⟨S1x2560, .f32⟩
  | .local _ .vmem, ⟨28, _⟩ => ⟨S1024x2560, .f32⟩
  | .local _ .vmem, ⟨29, _⟩ => ⟨S1024x2560, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v16 : Ref sig .tc := ⟨.hbm, 36, rfl⟩
abbrev main_c_1 : Ref sig .tc := ⟨.hbm, 37, rfl⟩
abbrev main_call0_v0 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_call1_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![2, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2560x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  transposes_S1536x2048_S2048x1536_1_0 : S1536x2048.Transposes [1, 0] S2048x1536
  bcast_S1536_S1x1536_1 : S1536.BroadcastsInDim S1x1536 (![1] : Fin 1 → Fin S1x1536.rank)
  bcast_S1x1536_S2048x1536_0_1 : S1x1536.BroadcastsInDim S2048x1536 (![0, 1] : Fin 2 → Fin S2048x1536.rank)
  shapeCasts_S1536_S1x1536 : S1536.ShapeCasts S1x1536
  shapeCasts_S512_S1x512 : S512.ShapeCasts S1x512
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1536x512_S1536x512_0_0 : ∀ a, (![0, 0] : Fin 2 → Nat) a + S1536x512.size a ≤ S1536x512.size a
  h_S1536x512 : 0 < S1536x512.numel
  bitsLt_bf16_f32 : FTy.bits .bf16 < FTy.bits .f32
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  broadcasts_S256x1_S256x512 : S256x1.Broadcasts S256x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  pads_S50000x512_S51200x512_012000_000 : S50000x512.Pads (![0, 0] : Fin 2 → Nat) ![1200, 0] ![0, 0] S51200x512
  h_S_ : 0 < S_.numel
  pads_S50000_S51200_012000 : S50000.Pads (![0] : Fin 1 → Nat) ![1200] ![0] S51200
  shapeCasts_S51200_S1x51200 : S51200.ShapeCasts S1x51200
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  inb_S1024x2560_S1024x2560_0_0 : ∀ a, (![0, 0] : Fin 2 → Nat) a + S1024x2560.size a ≤ S1024x2560.size a
  h_S1024x2560 : 0 < S1024x2560.numel
  slices_S2048x51200_S2048x50000_0_0 : S2048x51200.Slices ![0, 0] S2048x50000
  gather_S1536x50000_S2048x1_S1536x2048_0_1_n_n_1_1_15361_wf : GatherDims.WF S1536x50000 S2048x1 S1536x2048 [0] [1] [] [1] [] 1 ![1536, 1]
  dot_S256x512_S1536x512_S256x1536_1_1_0_0_n_n_wf : DotDims.WF S256x512 S1536x512 S256x1536 [1] [1] [0] [0] [] []
  dot_S256x512_S512x512_S256x512_1_1_0_0_n_n_wf : DotDims.WF S256x512 S512x512 S256x512 [1] [1] [0] [0] [] []
  dot_S1024x512_S2560x512_S1024x2560_1_1_0_0_n_n_wf : DotDims.WF S1024x512 S2560x512 S1024x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x512.size a
  hwx0_2 : ∀ i : grid0.Coords, EltTy.bits .f32 = 32 ∨ (Rect.block (s := S2048x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1536.size a ≤ S2048x1536.size a
  hwx0_4 : ∀ i : grid0.Coords, EltTy.bits .f32 = 32 ∨ (Rect.block (s := S2048x1536) S256x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .f32 = 32 ∨ (Rect.block (s := S1536x512) S1536x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x512.size a ≤ S1536x512.size a
  hwx0_7 : ∀ i : grid0.Coords, EltTy.bits .f32 = 32 ∨ (Rect.block (s := S1536x512) S1536x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1536x512.size a ≤ S1536x512.size a
  hwx0_9 : ∀ i : grid0.Coords, EltTy.bits .f32 = 32 ∨ (Rect.block (s := S1536x512) S1536x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1536.size a ≤ S1x1536.size a
  hwx0_10 : ∀ i : grid0.Coords, EltTy.bits .f32 = 32 ∨ (Rect.block (s := S1x1536) S1x1536.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S2048x512.size a
  hwx0_13 : ∀ i : grid0.Coords, EltTy.bits .f32 = 32 ∨ (Rect.block (s := S2048x512) S256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S2048x512.size a
  hwx0_14 : ∀ i : grid0.Coords, EltTy.bits .f32 = 32 ∨ (Rect.block (s := S2048x512) S256x512.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x512.size a
  hwx1_0 : ∀ i : grid1.Coords, EltTy.bits .bf16 = 32 ∨ (Rect.block (s := S2048x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x512.size a ≤ S51200x512.size a
  hwx1_1 : ∀ i : grid1.Coords, EltTy.bits .bf16 = 32 ∨ (Rect.block (s := S51200x512) S2560x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2560.size a ≤ S1x51200.size a
  hwx1_2 : ∀ i : grid1.Coords, EltTy.bits .f32 = 32 ∨ (Rect.block (s := S1x51200) S1x2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2560.size a ≤ S2048x51200.size a
  hwx1_3 : ∀ i : grid1.Coords, EltTy.bits .f32 = 32 ∨ (Rect.block (s := S2048x51200) S1024x2560.size (cc1_transform_3 i) (hinb1_3 i)).WholeWords (EltTy.packing .f32)

variable [Facts₀]

def gather_S1536x50000_S2048x1_S1536x2048_0_1_n_n_1_1_15361 : GatherDims S1536x50000 S2048x1 S1536x2048 where
  offsetDims := [0]
  collapsedSliceDims := [1]
  operandBatchingDims := []
  startIndicesBatchingDims := []
  startIndexMap := [1]
  indexVectorDim := 1
  sliceSizes := ![1536, 1]
  wf := gather_S1536x50000_S2048x1_S1536x2048_0_1_n_n_1_1_15361_wf
def dot_S256x512_S1536x512_S256x1536_1_1_0_0_n_n : DotDims S256x512 S1536x512 S256x1536 where
  lhsContracting := [1]
  rhsContracting := [1]
  lhsNonContracting := [0]
  rhsNonContracting := [0]
  lhsBatch := []
  rhsBatch := []
  wf := dot_S256x512_S1536x512_S256x1536_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S1024x512_S2560x512_S1024x2560_1_1_0_0_n_n : DotDims S1024x512 S2560x512 S1024x2560 where
  lhsContracting := [1]
  rhsContracting := [1]
  lhsNonContracting := [0]
  rhsNonContracting := [0]
  lhsBatch := []
  rhsBatch := []
  wf := dot_S1024x512_S2560x512_S1024x2560_1_1_0_0_n_n_wf

abbrev win0_0 : Pipeline.Window sig grid0 :=
  Pipeline.Window.ofSpec (Memref.whole main_arg1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x1536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1536x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1536x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15_0) S256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15_1) S256x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v16) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2560x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1024x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048 : Shape := ⟨1, ![2048]⟩
abbrev S2048x512 : Shape := ⟨2, ![2048, 512]⟩
abbrev S2048x1 : Shape := ⟨2, ![2048, 1]⟩
abbrev S1536x50000 : Shape := ⟨2, ![1536, 50000]⟩
abbrev S1536 : Shape := ⟨1, ![1536]⟩
abbrev S1536x512 : Shape := ⟨2, ![1536, 512]⟩
abbrev S512x512 : Shape := ⟨2, ![512, 512]⟩
abbrev S512 : Shape := ⟨1, ![512]⟩
abbrev S50000x512 : Shape := ⟨2, ![50000, 512]⟩
abbrev S50000 : Shape := ⟨1, ![50000]⟩
abbrev S512x1536 : Shape := ⟨2, ![512, 1536]⟩
abbrev S2048x1536 : Shape := ⟨2, ![2048, 1536]⟩
abbrev S1x1536 : Shape := ⟨2, ![1, 1536]⟩
abbrev S_ : Shape := ⟨0, ![]⟩
abbrev S1x512 : Shape := ⟨2, ![1, 512]⟩
abbrev S1536x2048 : Shape := ⟨2, ![1536, 2048]⟩
abbrev S512x50000 : Shape := ⟨2, ![512, 50000]⟩
abbrev S2048x50000 : Shape := ⟨2, ![2048, 50000]⟩
abbrev S1x50000 : Shape := ⟨2, ![1, 50000]⟩

abbrev nBuf : Space → Nat
  | .hbm => 149
  | .vmem => 0
  | .smem => 0
  | _ => 0

abbrev hbmTy0_0 (i : Nat) : BufTy := match i % 128 with
  | 0 => ⟨S2048, .i32⟩
  | 1 => ⟨S2048x512, .f32⟩
  | 2 => ⟨S2048x1, .f32⟩
  | 3 => ⟨S2048x512, .f32⟩
  | 4 => ⟨S2048x1, .f32⟩
  | 5 => ⟨S1536x50000, .f32⟩
  | 6 => ⟨S1536, .f32⟩
  | 7 => ⟨S1536x512, .f32⟩
  | 8 => ⟨S1536, .f32⟩
  | 9 => ⟨S1536x512, .f32⟩
  | 10 => ⟨S1536, .f32⟩
  | 11 => ⟨S1536x512, .f32⟩
  | 12 => ⟨S1536, .f32⟩
  | 13 => ⟨S512x512, .f32⟩
  | 14 => ⟨S512, .f32⟩
  | 15 => ⟨S50000x512, .f32⟩
  | 16 => ⟨S50000, .f32⟩
  | 17 => ⟨S512x1536, .f32⟩
  | 18 => ⟨S2048x1536, .f32⟩
  | 19 => ⟨S1x1536, .f32⟩
  | 20 => ⟨S2048x1536, .f32⟩
  | 21 => ⟨S2048x1536, .f32⟩
  | 22 => ⟨S512x1536, .f32⟩
  | 23 => ⟨S2048x1536, .f32⟩
  | 24 => ⟨S1x1536, .f32⟩
  | 25 => ⟨S2048x1536, .f32⟩
  | 26 => ⟨S2048x1536, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S_, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S2048x512, .f32⟩
  | 52 => ⟨S2048x512, .f32⟩
  | 53 => ⟨S2048x512, .f32⟩
  | 54 => ⟨S_, .f32⟩
  | 55 => ⟨S2048x512, .f32⟩
  | 56 => ⟨S2048x512, .f32⟩
  | 57 => ⟨S2048x512, .f32⟩
  | 58 => ⟨S2048x512, .f32⟩
  | 59 => ⟨S2048x512, .f32⟩
  | 60 => ⟨S2048x512, .f32⟩
  | 61 => ⟨S2048x512, .f32⟩
  | 62 => ⟨S_, .f32⟩
  | 63 => ⟨S2048x1, .f32⟩
  | 64 => ⟨S2048x1, .f32⟩
  | 65 => ⟨S2048x512, .f32⟩
  | 66 => ⟨S2048x512, .f32⟩
  | 67 => ⟨S2048x512, .f32⟩
  | 68 => ⟨S_, .f32⟩
  | 69 => ⟨S2048x1, .f32⟩
  | 70 => ⟨S2048x1, .f32⟩
  | 71 => ⟨S2048x512, .f32⟩
  | 72 => ⟨S2048x512, .f32⟩
  | 73 => ⟨S512x512, .f32⟩
  | 74 => ⟨S2048x512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S_, .f32⟩
  | 82 => ⟨S2048x1, .f32⟩
  | 83 => ⟨S2048x1, .f32⟩
  | 84 => ⟨S2048x512, .f32⟩
  | 85 => ⟨S2048x512, .f32⟩
  | 86 => ⟨S2048x512, .f32⟩
  | 87 => ⟨S_, .f32⟩
  | 88 => ⟨S2048x1, .f32⟩
  | 89 => ⟨S2048x1, .f32⟩
  | 90 => ⟨S2048x512, .f32⟩
  | 91 => ⟨S2048x512, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S1536x2048, .f32⟩
  | 101 => ⟨S2048x1536, .f32⟩
  | 102 => ⟨S1x1536, .f32⟩
  | 103 => ⟨S2048x1536, .f32⟩
  | 104 => ⟨S2048x1536, .f32⟩
  | 105 => ⟨S512x1536, .f32⟩
  | 106 => ⟨S2048x1536, .f32⟩
  | 107 => ⟨S1x1536, .f32⟩
  | 108 => ⟨S2048x1536, .f32⟩
  | 109 => ⟨S2048x1536, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S_, .f32⟩
  | 120 => ⟨S2048x512, .f32⟩
  | 121 => ⟨S2048x512, .f32⟩
  | 122 => ⟨S_, .f32⟩
  | 123 => ⟨S2048x512, .f32⟩
  | 124 => ⟨S2048x512, .f32⟩
  | 125 => ⟨S2048x512, .f32⟩
  | 126 => ⟨S2048x512, .f32⟩
  | 127 => ⟨S2048x512, .f32⟩
  | _ => ⟨S2048, .i32⟩

abbrev hbmTy0_1 (i : Nat) : BufTy := match i % 128 with
  | 0 => ⟨S_, .f32⟩
  | 1 => ⟨S2048x512, .f32⟩
  | 2 => ⟨S2048x512, .f32⟩
  | 3 => ⟨S_, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S512x50000, .f32⟩
  | 16 => ⟨S2048x50000, .f32⟩
  | 17 => ⟨S1x50000, .f32⟩
  | 18 => ⟨S2048x50000, .f32⟩
  | 19 => ⟨S2048x50000, .f32⟩
  | 20 => ⟨S2048x50000, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_v66 : Ref sig .tc := ⟨.hbm, 93, rfl⟩
abbrev main_v67 : Ref sig .tc := ⟨.hbm, 94, rfl⟩
abbrev main_c_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_9 : Ref sig .tc := ⟨.hbm, 119, rfl⟩
abbrev main_v91 : Ref sig .tc := ⟨.hbm, 120, rfl⟩
abbrev main_v92 : Ref sig .tc := ⟨.hbm, 121, rfl⟩
abbrev main_cst_10 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_11 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_13 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]

class Facts₀ : Prop where
  transposes_S1536x512_S512x1536_1_0 : S1536x512.Transposes [1, 0] S512x1536
  bcast_S1536_S1x1536_1 : S1536.BroadcastsInDim S1x1536 (![1] : Fin 1 → Fin S1x1536.rank)
  bcast_S1x1536_S2048x1536_0_1 : S1x1536.BroadcastsInDim S2048x1536 (![0, 1] : Fin 2 → Fin S2048x1536.rank)
  slices_S2048x1536_S2048x512_0_0 : S2048x1536.Slices ![0, 0] S2048x512
  slices_S2048x1536_S2048x512_0_512 : S2048x1536.Slices ![0, 512] S2048x512
  slices_S2048x1536_S2048x512_0_1024 : S2048x1536.Slices ![0, 1024] S2048x512
  bcast_S_S2048x512 : S_.BroadcastsInDim S2048x512 (![] : Fin 0 → Fin S2048x512.rank)
  bcast_S2048x1_S2048x512_0_1 : S2048x1.BroadcastsInDim S2048x512 (![0, 1] : Fin 2 → Fin S2048x512.rank)
  bcast_S_S2048x1 : S_.BroadcastsInDim S2048x1 (![] : Fin 0 → Fin S2048x1.rank)
  transposes_S512x512_S512x512_1_0 : S512x512.Transposes [1, 0] S512x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048 : S_.BroadcastsInDim S2048 (![] : Fin 0 → Fin S2048.rank)
  bcast_S2048_S2048x1_0 : S2048.BroadcastsInDim S2048x1 (![0] : Fin 1 → Fin S2048x1.rank)
  transposes_S1536x2048_S2048x1536_1_0 : S1536x2048.Transposes [1, 0] S2048x1536
  transposes_S50000x512_S512x50000_1_0 : S50000x512.Transposes [1, 0] S512x50000
  bcast_S50000_S1x50000_1 : S50000.BroadcastsInDim S1x50000 (![1] : Fin 1 → Fin S1x50000.rank)
  bcast_S1x50000_S2048x50000_0_1 : S1x50000.BroadcastsInDim S2048x50000 (![0, 1] : Fin 2 → Fin S2048x50000.rank)
  dot_S2048x512_S512x1536_S2048x1536_1_0_0_1_n_n_wf : DotDims.WF S2048x512 S512x1536 S2048x1536 [1] [0] [0] [1] [] []
  dot_S2048x512_S512x512_S2048x512_1_0_0_1_n_n_wf : DotDims.WF S2048x512 S512x512 S2048x512 [1] [0] [0] [1] [] []
  gather_S1536x50000_S2048x1_S1536x2048_0_1_n_n_1_1_15361_wf : GatherDims.WF S1536x50000 S2048x1 S1536x2048 [0] [1] [] [1] [] 1 ![1536, 1]
  dot_S2048x512_S512x50000_S2048x50000_1_0_0_1_n_n_wf : DotDims.WF S2048x512 S512x50000 S2048x50000 [1] [0] [0] [1] [] []

variable [Facts₀]

def dot_S2048x512_S512x1536_S2048x1536_1_0_0_1_n_n : DotDims S2048x512 S512x1536 S2048x1536 where
  lhsContracting := [1]
  rhsContracting := [0]
  lhsNonContracting := [0]
  rhsNonContracting := [1]
  lhsBatch := []
  rhsBatch := []
  wf := dot_S2048x512_S512x1536_S2048x1536_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S1536x50000_S2048x1_S1536x2048_0_1_n_n_1_1_15361 : GatherDims S1536x50000 S2048x1 S1536x2048 where
  offsetDims := [0]
  collapsedSliceDims := [1]
  operandBatchingDims := []
  startIndicesBatchingDims := []
  startIndexMap := [1]
  indexVectorDim := 1
  sliceSizes := ![1536, 1]
  wf := gather_S1536x50000_S2048x1_S1536x2048_0_1_n_n_1_1_15361_wf
def dot_S2048x512_S512x50000_S2048x50000_1_0_0_1_n_n : DotDims S2048x512 S512x50000 S2048x50000 where
  lhsContracting := [1]
  rhsContracting := [0]
  lhsNonContracting := [0]
  rhsNonContracting := [1]
  lhsBatch := []
  rhsBatch := []
  wf := dot_S2048x512_S512x50000_S2048x50000_1_0_0_1_n_n_wf

class Facts : Prop extends Facts₀ where

variable [Facts]
-- ==== Proof.Boundaries.lean ====
/-
  What the buffers hold where the two pallas_calls are entered and where @main returns.

  Between the launch and the first call the host computes the input projection (for each batch row the column of
  the input table its item selects — a negative item index first wrapped by the table's width —, transposed to rows,
  plus a bias) and lays each bias vector out as a `1 × n` row; the first call then finds every other operand as
  launched. Between the calls the host narrows the new session state's format, pads the output layer's weight with
  1200 zero rows and its bias with 1200 zeros (the pad value is the integer 0 converted), and lays the padded bias out
  as a row. After the second call it cuts the padding columns off the scores. The two new states are returned as the
  first call left them.
-/
import proofs.«169456_j64295660421643_1_alg».proof.Proof.Gen.KernelIdeal.Frame
import Idealize.ShloMosaic.Lib.StableHlo.Run

set_option maxRecDepth 16384

noncomputable section

namespace Cert.KernelIdeal.Bounds

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The input projection: column `idx[p]` of the table (a negative index wrapped by 50000 first) as row `p`, plus the bias. -/
def xproj (a0 : (⟨S2048, .i32⟩ : BufTy).Contents (Elt F)) (a5 : (⟨S1536x50000, .f32⟩ : BufTy).Contents (Elt F))
    (a6 : (⟨S1536, .f32⟩ : BufTy).Contents (Elt F)) : (⟨S2048x1536, .f32⟩ : BufTy).Contents (Elt F) :=
  addf
    (transpose S2048x1536 [1, 0]
      (Host.gather gather_S1536x50000_S2048x1_S1536x2048_0_1_n_n_1_1_15361 a5
        (broadcastInDim S2048x1 ![0] bcast_S2048_S2048x1_0
          (select (cmpi CmpIPredicate.slt a0 (broadcastInDim S2048 ![] bcast_S_S2048 (constantI S_ 32 0#32)))
            (addi a0 (broadcastInDim S2048 ![] bcast_S_S2048 (constantI S_ 32 50000#32))) a0)))
      transposes_S1536x2048_S2048x1536_1_0)
    (broadcastInDim S2048x1536 ![0, 1] bcast_S1x1536_S2048x1536_0_1 (broadcastInDim S1x1536 ![1] bcast_S1536_S1x1536_1 a6))

/-! ## Where the first call is entered -/

theorem V1_v10 (c : Dev nD) : V1 m ρ c main_v10
    = xproj (m ((c.tc : Thread nD τ).loc main_arg0)) (m ((c.tc : Thread nD τ).loc main_arg5)) (m ((c.tc : Thread nD τ).loc main_arg6)) := by
  show StableHlo.after hostOps0 (W0 m ρ c) (Proc.devRef .tc main_v10) = _
  after_results_simp
  rfl

theorem V1_v11 (c : Dev nD) : V1 m ρ c main_v11 = shapeCast S1x1536 (m ((c.tc : Thread nD τ).loc main_arg10)) shapeCasts_S1536_S1x1536 := by
  show StableHlo.after hostOps0 (W0 m ρ c) (Proc.devRef .tc main_v11) = _
  after_results_simp
  rfl

theorem V1_v12 (c : Dev nD) : V1 m ρ c main_v12 = shapeCast S1x1536 (m ((c.tc : Thread nD τ).loc main_arg12)) shapeCasts_S1536_S1x1536 := by
  show StableHlo.after hostOps0 (W0 m ρ c) (Proc.devRef .tc main_v12) = _
  after_results_simp
  rfl

theorem V1_v13 (c : Dev nD) : V1 m ρ c main_v13 = shapeCast S1x1536 (m ((c.tc : Thread nD τ).loc main_arg8)) shapeCasts_S1536_S1x1536 := by
  show StableHlo.after hostOps0 (W0 m ρ c) (Proc.devRef .tc main_v13) = _
  after_results_simp
  rfl

theorem V1_v14 (c : Dev nD) : V1 m ρ c main_v14 = shapeCast S1x512 (m ((c.tc : Thread nD τ).loc main_arg14)) shapeCasts_S512_S1x512 := by
  show StableHlo.after hostOps0 (W0 m ρ c) (Proc.devRef .tc main_v14) = _
  after_results_simp
  rfl

theorem V1_arg1 (c : Dev nD) : V1 m ρ c main_arg1 = m ((c.tc : Thread nD τ).loc main_arg1) := by
  show StableHlo.after hostOps0 (W0 m ρ c) (Proc.devRef .tc main_arg1) = _
  after_results_simp

theorem V1_arg2 (c : Dev nD) : V1 m ρ c main_arg2 = m ((c.tc : Thread nD τ).loc main_arg2) := by
  show StableHlo.after hostOps0 (W0 m ρ c) (Proc.devRef .tc main_arg2) = _
  after_results_simp

theorem V1_arg3 (c : Dev nD) : V1 m ρ c main_arg3 = m ((c.tc : Thread nD τ).loc main_arg3) := by
  show StableHlo.after hostOps0 (W0 m ρ c) (Proc.devRef .tc main_arg3) = _
  after_results_simp

theorem V1_arg4 (c : Dev nD) : V1 m ρ c main_arg4 = m ((c.tc : Thread nD τ).loc main_arg4) := by
  show StableHlo.after hostOps0 (W0 m ρ c) (Proc.devRef .tc main_arg4) = _
  after_results_simp

theorem V1_arg7 (c : Dev nD) : V1 m ρ c main_arg7 = m ((c.tc : Thread nD τ).loc main_arg7) := by
  show StableHlo.after hostOps0 (W0 m ρ c) (Proc.devRef .tc main_arg7) = _
  after_results_simp

theorem V1_arg9 (c : Dev nD) : V1 m ρ c main_arg9 = m ((c.tc : Thread nD τ).loc main_arg9) := by
  show StableHlo.after hostOps0 (W0 m ρ c) (Proc.devRef .tc main_arg9) = _
  after_results_simp

theorem V1_arg11 (c : Dev nD) : V1 m ρ c main_arg11 = m ((c.tc : Thread nD τ).loc main_arg11) := by
  show StableHlo.after hostOps0 (W0 m ρ c) (Proc.devRef .tc main_arg11) = _
  after_results_simp

theorem V1_arg13 (c : Dev nD) : V1 m ρ c main_arg13 = m ((c.tc : Thread nD τ).loc main_arg13) := by
  show StableHlo.after hostOps0 (W0 m ρ c) (Proc.devRef .tc main_arg13) = _
  after_results_simp

/-! ## Where the second call is entered -/

/-- The five host stretches between the calls, written out over the first call's exit contents. -/
theorem W7_eq (c : Dev nD) : W7 m ρ c
    = StableHlo.after hostOps1_4 (StableHlo.after hostOps1_3 (StableHlo.after hostOps1_2 (StableHlo.after hostOps1_1
        (StableHlo.after hostOps1 (W2 m ρ c))))) := rfl

theorem V7_v16 (c : Dev nD) : V7 m ρ c main_v16 = truncf .bf16 ((dat0 (V1 m ρ) c).arrAt 13 cfg0.N) bitsLt_bf16_f32 := by
  show W7 m ρ c (Proc.devRef .tc main_v16) = _
  rw [W7_eq]
  after_results_simp
  exact congrArg (fun x => truncf FTy.bf16 x bitsLt_bf16_f32) (W2_arr m ρ c 13)

/-- An argument the first call does not write is still as launched where the call is left. -/
theorem W2_arg15 (c : Dev nD) : W2 m ρ c (Proc.devRef .tc main_arg15) = m ((c.tc : Thread nD τ).loc main_arg15) := by
  rw [W2_of_ne m ρ c main_arg15 (by decide)]
  show StableHlo.after hostOps0 (W0 m ρ c) (Proc.devRef .tc main_arg15) = _
  after_results_simp

theorem W2_arg16 (c : Dev nD) : W2 m ρ c (Proc.devRef .tc main_arg16) = m ((c.tc : Thread nD τ).loc main_arg16) := by
  rw [W2_of_ne m ρ c main_arg16 (by decide)]
  show StableHlo.after hostOps0 (W0 m ρ c) (Proc.devRef .tc main_arg16) = _
  after_results_simp

theorem V7_v18 (c : Dev nD) : V7 m ρ c main_v18
    = truncf .bf16 (pad S51200x512 ![0, 0] ![1200, 0] ![0, 0] (m ((c.tc : Thread nD τ).loc main_arg15))
        (sitofp .f32 (constantI S_ 32 0#32)) pads_S50000x512_S51200x512_012000_000 h_S_) bitsLt_bf16_f32 := by
  show W7 m ρ c (Proc.devRef .tc main_v18) = _
  rw [W7_eq]
  after_results_simp
  rw [W2_arg15]
  rfl

theorem V7_v20 (c : Dev nD) : V7 m ρ c main_v20
    = shapeCast S1x51200 (pad S51200 ![0] ![1200] ![0] (m ((c.tc : Thread nD τ).loc main_arg16))
        (sitofp .f32 (constantI S_ 32 0#32)) pads_S50000_S51200_012000 h_S_) shapeCasts_S51200_S1x51200 := by
  show W7 m ρ c (Proc.devRef .tc main_v20) = _
  rw [W7_eq]
  after_results_simp
  rw [W2_arg16]
  rfl

/-! ## Where @main returns -/

theorem W9_v22 (c : Dev nD) : W9 m ρ c (Proc.devRef .tc main_v22)
    = extractStridedSlice S2048x50000 ![0, 0] ((dat1 (V7 m ρ) c).arrAt 3 cfg1.N) slices_S2048x51200_S2048x50000_0_0 := by
  show StableHlo.after hostOps2 (W8 m ρ c) (Proc.devRef .tc main_v22) = _
  after_results_simp
  exact congrArg (fun x => extractStridedSlice S2048x50000 ![0, 0] x slices_S2048x51200_S2048x50000_0_0) (W8_arr m ρ c 3)

theorem W9_v15_0 (c : Dev nD) : W9 m ρ c (Proc.devRef .tc main_v15_0) = (dat0 (V1 m ρ) c).arrAt 13 cfg0.N := by
  show StableHlo.after hostOps2 (W8 m ρ c) (Proc.devRef .tc main_v15_0) = _
  after_results_simp
  rw [W8_of_ne m ρ c main_v15_0 (by decide), W7_eq]
  after_results_simp
  exact W2_arr m ρ c 13

theorem W9_v15_1 (c : Dev nD) : W9 m ρ c (Proc.devRef .tc main_v15_1) = (dat0 (V1 m ρ) c).arrAt 14 cfg0.N := by
  show StableHlo.after hostOps2 (W8 m ρ c) (Proc.devRef .tc main_v15_1) = _
  after_results_simp
  rw [W8_of_ne m ρ c main_v15_1 (by decide), W7_eq]
  after_results_simp
  exact W2_arr m ρ c 14

end Cert.KernelIdeal.Bounds

end
-- ==== Proof.Spec.lean ====
/-
  One step of a two-level recurrent recommender, entry by entry, on the extended reals.

  A batch row carries a session state `s` and a user state `u` (512 entries each), two gates `sm`, `um` and an
  input projection `x` (3·512 entries, the row of the input table the row's item selects, plus a bias). One step:

    u' = (1 − um) · (sm · cell(s Wᵢᵤᵀ + bᵢᵤ ; u) + (1 − sm) · u)              the user cell, blended and gated
    s° = (1 − um) · (sm · tanh(u' Wᵤₛᵀ + bᵤₛ) + (1 − sm) · s)                  the session re-initialised from the user
    s' = cell(x ; s°)                                                          the session cell
    score = tanh(s' Wₒᵀ + bₒ)                                                  one entry per item

  where `cell(x ; h)` is the gated recurrent cell: with `g = h Wₕᵀ + bₕ` (3·512 entries) and the three thirds of
  `x` and `g` called r, z, n,  r = σ(xᵣ + gᵣ), z = σ(x_z + g_z), n = tanh(xₙ + r · gₙ), and the new entry is
  (1 − z) · n + z · h.  Every entry of a result depends on ONE row of the states only; this file states each result
  entry as a function of that row, in the order of operations both programs use, so that neither side needs any
  law of the extended reals beyond reading its own operations.
-/
import Idealize.ShloMosaic.PureOps.Ideal

noncomputable section

open scoped BigOperators

namespace Cert.Gru

open Idealize.ShloMosaic

/-- The f32 word of 1.0 on the extended reals. -/
abbrev one : EReal := Ideal.ofBits .f32 0x3F800000#32

/-- An affine map's entry: `Σₜ a[t] · w[t] + b`. -/
def aff (a w : Fin 512 → EReal) (b : EReal) : EReal := (∑ t : Fin 512, a t * w t) + b

/-- The recurrent cell's entry from the three thirds of the two projections and the old entry. -/
def gate (xr xz xn hr hz hn h : EReal) : EReal :=
  (one - Ideal.logistic (xz + hz)) * Ideal.tanh (xn + Ideal.logistic (xr + hr) * hn) + Ideal.logistic (xz + hz) * h

/-- The blend `(1 − um) · (sm · new + (1 − sm) · old)`. -/
def blend (sm um new old : EReal) : EReal := (one - um) * (sm * new + (one - sm) * old)

/-- Entry `j` of the first, second and third third of a 3·512 vector. -/
abbrev lo (j : Fin 512) : Fin 1536 := ⟨j.val + 0, by omega⟩
abbrev mid (j : Fin 512) : Fin 1536 := ⟨j.val + 512, by omega⟩
abbrev hi (j : Fin 512) : Fin 1536 := ⟨j.val + 1024, by omega⟩

/-- The weights of the step (all but the input table and the output layer). -/
structure Weights where
  Wih_u : Fin 1536 → Fin 512 → EReal
  bih_u : Fin 1536 → EReal
  Whh_u : Fin 1536 → Fin 512 → EReal
  bhh_u : Fin 1536 → EReal
  Whh_s : Fin 1536 → Fin 512 → EReal
  bhh_s : Fin 1536 → EReal
  u2s_W : Fin 512 → Fin 512 → EReal
  u2s_b : Fin 512 → EReal

/-- The recurrent cell on one row: input projection `x`, hidden projection of `h` through `(Whh, bhh)`. -/
def cell (x : Fin 1536 → EReal) (Whh : Fin 1536 → Fin 512 → EReal) (bhh : Fin 1536 → EReal) (h : Fin 512 → EReal)
    (j : Fin 512) : EReal :=
  gate (x (lo j)) (x (mid j)) (x (hi j))
    (aff h (Whh (lo j)) (bhh (lo j))) (aff h (Whh (mid j)) (bhh (mid j))) (aff h (Whh (hi j)) (bhh (hi j))) (h j)

/-- The new user state's row. -/
def userRow (W : Weights) (s u : Fin 512 → EReal) (sm um : EReal) (j : Fin 512) : EReal :=
  blend sm um (cell (fun i => aff s (W.Wih_u i) (W.bih_u i)) W.Whh_u W.bhh_u u j) (u j)

/-- The session state re-initialised from the new user state, before the session cell. -/
def midRow (W : Weights) (s u : Fin 512 → EReal) (sm um : EReal) (j : Fin 512) : EReal :=
  blend sm um (Ideal.tanh (aff (userRow W s u sm um) (W.u2s_W j) (W.u2s_b j))) (s j)

/-- The new session state's row. -/
def sessRow (W : Weights) (x : Fin 1536 → EReal) (s u : Fin 512 → EReal) (sm um : EReal) (j : Fin 512) : EReal :=
  cell x W.Whh_s W.bhh_s (midRow W s u sm um) j

/-- One score entry: an output row `w` with bias `b` against the new session row. -/
def score (s' w : Fin 512 → EReal) (b : EReal) : EReal := Ideal.tanh (aff s' w b)

end Cert.Gru

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.KernelRows.lean ====
/-
  The two kernels' bodies, read one entry at a time.

  The first kernel works on a block of 256 batch rows: what it stores for the new user state and the new session
  state at row `p`, column `q` of the block is the step's row function (Spec) of row `p` of the loaded blocks,
  the weights read off the eight weight blocks (a bias arrives as a `1 × n` row). The second kernel works on a
  block of 1024 session rows against 2560 output rows: what it stores at `(p, q)` is the score entry of session row
  `p` against output row `q`. A change of float format is the identity on the extended reals.
-/
import proofs.«169456_j64295660421643_1_alg».proof.Proof.Gen.KernelIdeal.Frame
import proofs.«169456_j64295660421643_1_alg».proof.Proof.Spec
import proofs.«169456_j64295660421643_1_alg».proof.Proof.LibStackDots
import proofs.«169456_j64295660421643_1_alg».proof.Proof.LibMatrixReads
import proofs.«169456_j64295660421643_1_alg».proof.Proof.LibRowSums

noncomputable section

open scoped BigOperators

namespace Cert.KernelIdeal.Rows

open Cert.KernelIdeal Cert.KernelIdeal.Gen Idealize.ShloMosaic Idealize.ShloMosaic.ValueIdx

/-- The step's weights as the first kernel's eight weight blocks hold them. -/
def wts (x5 : Vec Ideal S1536x512 .f32) (x6 : Vec Ideal S1x1536 .f32) (x7 : Vec Ideal S1536x512 .f32) (x8 : Vec Ideal S1x1536 .f32)
    (x9 : Vec Ideal S1536x512 .f32) (x10 : Vec Ideal S1x1536 .f32) (x11 : Vec Ideal S512x512 .f32) (x12 : Vec Ideal S1x512 .f32) :
    Cert.Gru.Weights where
  Wih_u i t := x5 (ix2 i t)
  bih_u i := x6 (ix2 (0 : Fin 1) i)
  Whh_u i t := x7 (ix2 i t)
  bhh_u i := x8 (ix2 (0 : Fin 1) i)
  Whh_s i t := x9 (ix2 i t)
  bhh_s i := x10 (ix2 (0 : Fin 1) i)
  u2s_W j t := x11 (ix2 j t)
  u2s_b j := x12 (ix2 (0 : Fin 1) j)

/-! ## Operations read at an index -/

/-- The hyperbolic tangent of a vector reads entry by entry. -/
private theorem tanh_at {s : Shape} {φ : FTy} (a : FVec Ideal s φ) (i : s.Idx) : tanh a i = Ideal.tanh (a i) := rfl

/-- The logistic function of a vector reads entry by entry. -/
private theorem logistic_at {s : Shape} {φ : FTy} (a : FVec Ideal s φ) (i : s.Idx) : logistic a i = Ideal.logistic (a i) := rfl

/-- `A Wᵀ` for a `256 × 512` block `A` and `1536` weight rows, into zeros: `Σₜ A[p, t] · W[j, t]`. -/
private theorem mm1536 (A : FVec Ideal S256x512 .bf16) (B : FVec Ideal S1536x512 .bf16) (p : Fin 256) (j : Fin 1536) :
    matmul dot_S256x512_S1536x512_S256x1536_1_1_0_0_n_n none A B (constant (F := Ideal) S256x1536 .f32 0x00000000#32) (ix2 p j)
      = ∑ t : Fin 512, A (ix2 p t) * B (ix2 j t) := by
  unfold dot_S256x512_S1536x512_S256x1536_1_1_0_0_n_n
  exact StackDots.matmul_nt_zero_apply _ none A B p j

/-- `A Wᵀ` for a `256 × 512` block `A` and `512` weight rows, into zeros: `Σₜ A[p, t] · W[j, t]`. -/
private theorem mm512 (A : FVec Ideal S256x512 .bf16) (B : FVec Ideal S512x512 .bf16) (p : Fin 256) (j : Fin 512) :
    matmul dot_S256x512_S512x512_S256x512_1_1_0_0_n_n none A B (constant (F := Ideal) S256x512 .f32 0x00000000#32) (ix2 p j)
      = ∑ t : Fin 512, A (ix2 p t) * B (ix2 j t) := by
  unfold dot_S256x512_S512x512_S256x512_1_1_0_0_n_n
  exact StackDots.matmul_nt_zero_apply _ none A B p j

/-- A block times `1536` weight rows plus the bias row, at row `p` and column `j`: the affine map's entry of row `p`
    against weight row `j`. -/
private theorem aff1536_at (a : FVec Ideal S256x512 .f32) (W : Vec Ideal S1536x512 .f32) (b : Vec Ideal S1x1536 .f32)
    (p : Fin 256) (j : Fin 1536) :
    addf (matmul dot_S256x512_S1536x512_S256x1536_1_1_0_0_n_n none (truncf .bf16 a bitsLt_bf16_f32)
        (truncf .bf16 W bitsLt_bf16_f32) (constant (F := Ideal) S256x1536 .f32 0x00000000#32))
      (broadcastTo S256x1536 (shapeCast S1x1536 b shapeCasts_S1x1536_S1x1536) broadcasts_S1x1536_S256x1536) (ix2 p j)
      = Cert.Gru.aff (fun t => a (ix2 p t)) (fun t => W (ix2 j t)) (b (ix2 (0 : Fin 1) j)) := by
  rw [addf_apply, mm1536, MatrixReads.rowBroadcast_apply 256 1536 _ broadcasts_S1x1536_S256x1536 p j, shapeCast_self]
  rfl

/-- The three thirds of a `256 × 1536` value, at row `p` and column `q`. -/
private theorem lo_at (X : FVec Ideal S256x1536 .f32) (p : Fin 256) (q : Fin 512) :
    extractStridedSlice S256x512 ![0, 0] X slices_S256x1536_o0_0_S256x512 (ix2 p q) = X (ix2 p (Cert.Gru.lo q)) :=
  MatrixReads.colSlice_apply 256 1536 512 0 X slices_S256x1536_o0_0_S256x512 p q (by omega)

private theorem mid_at (X : FVec Ideal S256x1536 .f32) (p : Fin 256) (q : Fin 512) :
    extractStridedSlice S256x512 ![0, 512] X slices_S256x1536_o0_512_S256x512 (ix2 p q) = X (ix2 p (Cert.Gru.mid q)) :=
  MatrixReads.colSlice_apply 256 1536 512 512 X slices_S256x1536_o0_512_S256x512 p q (by omega)

private theorem hi_at (X : FVec Ideal S256x1536 .f32) (p : Fin 256) (q : Fin 512) :
    extractStridedSlice S256x512 ![0, 1024] X slices_S256x1536_o0_1024_S256x512 (ix2 p q) = X (ix2 p (Cert.Gru.hi q)) :=
  MatrixReads.colSlice_apply 256 1536 512 1024 X slices_S256x1536_o0_1024_S256x512 p q (by omega)

/-- A `256 × 1` column broadcast along the rows, at row `p`. -/
private theorem col_at (v : FVec Ideal S256x1 .f32) (p : Fin 256) (q : Fin 512) :
    broadcastTo S256x512 v broadcasts_S256x1_S256x512 (ix2 p q) = v (ix2 p (0 : Fin 1)) :=
  RowSums.broadcastTo_a1_ac_apply v broadcasts_S256x1_S256x512 p q

/-! ## The first kernel's payloads at an entry -/

private theorem pay3_at (a : Vec Ideal S256x512 .f32) (W : Vec Ideal S1536x512 .f32) (b : Vec Ideal S1x1536 .f32) (p : Fin 256) (j : Fin 1536) :
    k0_pay3 (F := Ideal) a W b (ix2 p j)
      = Cert.Gru.aff (fun t => a (ix2 p t)) (fun t => W (ix2 j t)) (b (ix2 (0 : Fin 1) j)) := by
  unfold k0_pay3
  exact aff1536_at a W b p j

private theorem pay4_at (a : Vec Ideal S256x512 .f32) (W : Vec Ideal S1536x512 .f32) (b : Vec Ideal S1x1536 .f32) (p : Fin 256) (j : Fin 1536) :
    k0_pay4 (F := Ideal) a W b (ix2 p j)
      = Cert.Gru.aff (fun t => a (ix2 p t)) (fun t => W (ix2 j t)) (b (ix2 (0 : Fin 1) j)) := by
  unfold k0_pay4
  exact aff1536_at a W b p j

/-- The update gate of the user cell, at row `p` and column `q`. -/
private theorem pay5_at (s u : Vec Ideal S256x512 .f32) (Wi : Vec Ideal S1536x512 .f32) (bi : Vec Ideal S1x1536 .f32)
    (Wh : Vec Ideal S1536x512 .f32) (bh : Vec Ideal S1x1536 .f32) (p : Fin 256) (q : Fin 512) :
    k0_pay5 (F := Ideal) s u Wi bi Wh bh (ix2 p q)
      = Ideal.logistic (k0_pay3 (F := Ideal) s Wi bi (ix2 p (Cert.Gru.mid q)) + k0_pay4 (F := Ideal) u Wh bh (ix2 p (Cert.Gru.mid q))) := by
  unfold k0_pay5
  rw [logistic_at, addf_apply, mid_at, mid_at]

/-- `(1 − z) · n` of the user cell, at row `p` and column `q`. -/
private theorem pay6_at (s u : Vec Ideal S256x512 .f32) (Wi : Vec Ideal S1536x512 .f32) (bi : Vec Ideal S1x1536 .f32)
    (Wh : Vec Ideal S1536x512 .f32) (bh : Vec Ideal S1x1536 .f32) (p : Fin 256) (q : Fin 512) :
    k0_pay6 (F := Ideal) s u Wi bi Wh bh (ix2 p q)
      = (Cert.Gru.one - k0_pay5 (F := Ideal) s u Wi bi Wh bh (ix2 p q))
          * Ideal.tanh (k0_pay3 (F := Ideal) s Wi bi (ix2 p (Cert.Gru.hi q))
              + Ideal.logistic (k0_pay3 (F := Ideal) s Wi bi (ix2 p (Cert.Gru.lo q)) + k0_pay4 (F := Ideal) u Wh bh (ix2 p (Cert.Gru.lo q)))
                * k0_pay4 (F := Ideal) u Wh bh (ix2 p (Cert.Gru.hi q))) := by
  unfold k0_pay6
  rw [mulf_apply, subf_apply, tanh_at, addf_apply, mulf_apply, logistic_at, addf_apply, hi_at, hi_at, lo_at, lo_at]
  rfl

/-- The cell's new entry `n' + z · u`, blended with the old entry and gated, at row `p` and column `q`. -/
private theorem pay7_at (u : Vec Ideal S256x512 .f32) (sm um : Vec Ideal S256x1 .f32) (z n : FVec Ideal S256x512 .f32) (p : Fin 256) (q : Fin 512) :
    k0_pay7 (F := Ideal) u sm um z n (ix2 p q)
      = Cert.Gru.blend (sm (ix2 p (0 : Fin 1))) (um (ix2 p (0 : Fin 1))) (n (ix2 p q) + z (ix2 p q) * u (ix2 p q)) (u (ix2 p q)) := by
  unfold k0_pay7
  rw [mulf_apply, col_at, addf_apply, mulf_apply, col_at, addf_apply, mulf_apply, mulf_apply, col_at]
  rfl

/-- The new user state's row, entry `q` of row `p`. -/
private theorem user_row (x0 : Vec Ideal S256x512 .f32) (x1 : Vec Ideal S256x1 .f32) (x2 : Vec Ideal S256x512 .f32) (x3 : Vec Ideal S256x1 .f32) (x5 : Vec Ideal S1536x512 .f32) (x6 : Vec Ideal S1x1536 .f32) (x7 : Vec Ideal S1536x512 .f32) (x8 : Vec Ideal S1x1536 .f32) (x9 : Vec Ideal S1536x512 .f32) (x10 : Vec Ideal S1x1536 .f32) (x11 : Vec Ideal S512x512 .f32) (x12 : Vec Ideal S1x512 .f32) (p : Fin 256) (q : Fin 512) :
    k0_pay7 (F := Ideal) x2 x1 x3 (k0_pay5 x0 x2 x5 x6 x7 x8) (k0_pay6 x0 x2 x5 x6 x7 x8) (ix2 p q)
      = Cert.Gru.userRow (wts x5 x6 x7 x8 x9 x10 x11 x12) (fun t => x0 (ix2 p t)) (fun t => x2 (ix2 p t))
          (x1 (ix2 p (0 : Fin 1))) (x3 (ix2 p (0 : Fin 1))) q := by
  simp only [pay7_at, pay6_at, pay5_at, pay3_at, pay4_at]
  rfl

/-- The session state re-initialised from the new user state, at row `p` and column `j`, over the new user state's block. -/
private theorem pay8_at (s u : Vec Ideal S256x512 .f32) (sm um : Vec Ideal S256x1 .f32) (z n : FVec Ideal S256x512 .f32)
    (W : Vec Ideal S512x512 .f32) (b : Vec Ideal S1x512 .f32) (p : Fin 256) (j : Fin 512) :
    k0_pay8 (F := Ideal) s u sm um z n W b (ix2 p j)
      = Cert.Gru.blend (sm (ix2 p (0 : Fin 1))) (um (ix2 p (0 : Fin 1)))
          (Ideal.tanh (Cert.Gru.aff (fun t => k0_pay7 (F := Ideal) u sm um z n (ix2 p t)) (fun t => W (ix2 j t)) (b (ix2 (0 : Fin 1) j))))
          (s (ix2 p j)) := by
  unfold k0_pay8
  rw [mulf_apply, col_at, addf_apply, mulf_apply, col_at, tanh_at, addf_apply, mm512,
    MatrixReads.rowBroadcast_apply 256 512 _ broadcasts_S1x512_S256x512 p j, shapeCast_self, mulf_apply, col_at]
  rfl

/-- The new session-before-cell row, entry `j` of row `p`. -/
private theorem mid_row (x0 : Vec Ideal S256x512 .f32) (x1 : Vec Ideal S256x1 .f32) (x2 : Vec Ideal S256x512 .f32) (x3 : Vec Ideal S256x1 .f32) (x5 : Vec Ideal S1536x512 .f32) (x6 : Vec Ideal S1x1536 .f32) (x7 : Vec Ideal S1536x512 .f32) (x8 : Vec Ideal S1x1536 .f32) (x9 : Vec Ideal S1536x512 .f32) (x10 : Vec Ideal S1x1536 .f32) (x11 : Vec Ideal S512x512 .f32) (x12 : Vec Ideal S1x512 .f32) (p : Fin 256) (j : Fin 512) :
    k0_pay8 (F := Ideal) x0 x2 x1 x3 (k0_pay5 x0 x2 x5 x6 x7 x8) (k0_pay6 x0 x2 x5 x6 x7 x8) x11 x12 (ix2 p j)
      = Cert.Gru.midRow (wts x5 x6 x7 x8 x9 x10 x11 x12) (fun t => x0 (ix2 p t)) (fun t => x2 (ix2 p t))
          (x1 (ix2 p (0 : Fin 1))) (x3 (ix2 p (0 : Fin 1))) j := by
  rw [pay8_at]
  have e : (fun t => k0_pay7 (F := Ideal) x2 x1 x3 (k0_pay5 x0 x2 x5 x6 x7 x8) (k0_pay6 x0 x2 x5 x6 x7 x8) (ix2 p t))
      = Cert.Gru.userRow (wts x5 x6 x7 x8 x9 x10 x11 x12) (fun t => x0 (ix2 p t)) (fun t => x2 (ix2 p t))
          (x1 (ix2 p (0 : Fin 1))) (x3 (ix2 p (0 : Fin 1))) :=
    funext fun t => user_row x0 x1 x2 x3 x5 x6 x7 x8 x9 x10 x11 x12 p t
  rw [e]
  rfl

/-- The session cell's hidden projection, at row `p` and column `i`, over the re-initialised session state's block. -/
private theorem pay9_at (s u : Vec Ideal S256x512 .f32) (sm um : Vec Ideal S256x1 .f32) (z n : FVec Ideal S256x512 .f32)
    (W : Vec Ideal S512x512 .f32) (b : Vec Ideal S1x512 .f32) (Wh : Vec Ideal S1536x512 .f32) (bh : Vec Ideal S1x1536 .f32)
    (p : Fin 256) (i : Fin 1536) :
    k0_pay9 (F := Ideal) s u sm um z n W b Wh bh (ix2 p i)
      = Cert.Gru.aff (fun t => k0_pay8 (F := Ideal) s u sm um z n W b (ix2 p t)) (fun t => Wh (ix2 i t)) (bh (ix2 (0 : Fin 1) i)) := by
  unfold k0_pay9
  exact aff1536_at (k0_pay8 (F := Ideal) s u sm um z n W b) Wh bh p i

/-- The session cell's entry from the thirds of its two projections and the old entry. -/
private theorem pay1_at (h : FVec Ideal S256x512 .f32) (g : FVec Ideal S256x1536 .f32) (xr xz xn gr gz : FVec Ideal S256x512 .f32)
    (p : Fin 256) (q : Fin 512) :
    k0_pay1 (F := Ideal) h g xr xz xn gr gz (ix2 p q)
      = Cert.Gru.gate (xr (ix2 p q)) (xz (ix2 p q)) (xn (ix2 p q)) (gr (ix2 p q)) (gz (ix2 p q)) (g (ix2 p (Cert.Gru.hi q))) (h (ix2 p q)) := by
  unfold k0_pay1
  simp only [addf_apply, mulf_apply, subf_apply, tanh_at, logistic_at, hi_at]
  rfl

/-- The thirds of the input projection's block. -/
private theorem pay10_at (X : Vec Ideal S256x1536 .f32) (p : Fin 256) (q : Fin 512) :
    k0_pay10 (F := Ideal) (k0_pay2 X) (ix2 p q) = X (ix2 p (Cert.Gru.lo q)) := by
  unfold k0_pay10 k0_pay2
  rw [lo_at, shapeCast_self]

private theorem pay11_at (X : Vec Ideal S256x1536 .f32) (p : Fin 256) (q : Fin 512) :
    k0_pay11 (F := Ideal) (k0_pay2 X) (ix2 p q) = X (ix2 p (Cert.Gru.mid q)) := by
  unfold k0_pay11 k0_pay2
  rw [mid_at, shapeCast_self]

private theorem pay12_at (X : Vec Ideal S256x1536 .f32) (p : Fin 256) (q : Fin 512) :
    k0_pay12 (F := Ideal) (k0_pay2 X) (ix2 p q) = X (ix2 p (Cert.Gru.hi q)) := by
  unfold k0_pay12 k0_pay2
  rw [hi_at, shapeCast_self]

/-- The first two thirds of the session cell's hidden projection. -/
private theorem pay13_at (s u : Vec Ideal S256x512 .f32) (sm um : Vec Ideal S256x1 .f32) (z n : FVec Ideal S256x512 .f32)
    (W : Vec Ideal S512x512 .f32) (b : Vec Ideal S1x512 .f32) (Wh : Vec Ideal S1536x512 .f32) (bh : Vec Ideal S1x1536 .f32)
    (p : Fin 256) (q : Fin 512) :
    k0_pay13 (F := Ideal) s u sm um z n W b Wh bh (ix2 p q) = k0_pay9 (F := Ideal) s u sm um z n W b Wh bh (ix2 p (Cert.Gru.lo q)) := by
  unfold k0_pay13
  exact lo_at _ p q

private theorem pay14_at (s u : Vec Ideal S256x512 .f32) (sm um : Vec Ideal S256x1 .f32) (z n : FVec Ideal S256x512 .f32)
    (W : Vec Ideal S512x512 .f32) (b : Vec Ideal S1x512 .f32) (Wh : Vec Ideal S1536x512 .f32) (bh : Vec Ideal S1x1536 .f32)
    (p : Fin 256) (q : Fin 512) :
    k0_pay14 (F := Ideal) s u sm um z n W b Wh bh (ix2 p q) = k0_pay9 (F := Ideal) s u sm um z n W b Wh bh (ix2 p (Cert.Gru.mid q)) := by
  unfold k0_pay14
  exact mid_at _ p q

/-- The new session state's row, entry `q` of row `p`. -/
private theorem sess_row (x0 : Vec Ideal S256x512 .f32) (x1 : Vec Ideal S256x1 .f32) (x2 : Vec Ideal S256x512 .f32) (x3 : Vec Ideal S256x1 .f32) (x4 : Vec Ideal S256x1536 .f32) (x5 : Vec Ideal S1536x512 .f32) (x6 : Vec Ideal S1x1536 .f32) (x7 : Vec Ideal S1536x512 .f32) (x8 : Vec Ideal S1x1536 .f32) (x9 : Vec Ideal S1536x512 .f32) (x10 : Vec Ideal S1x1536 .f32) (x11 : Vec Ideal S512x512 .f32) (x12 : Vec Ideal S1x512 .f32) (p : Fin 256) (q : Fin 512) :
    k0_pay1 (F := Ideal)
        (k0_pay8 x0 x2 x1 x3 (k0_pay5 x0 x2 x5 x6 x7 x8) (k0_pay6 x0 x2 x5 x6 x7 x8) x11 x12)
        (k0_pay9 x0 x2 x1 x3 (k0_pay5 x0 x2 x5 x6 x7 x8) (k0_pay6 x0 x2 x5 x6 x7 x8) x11 x12 x9 x10)
        (k0_pay10 (k0_pay2 x4)) (k0_pay11 (k0_pay2 x4)) (k0_pay12 (k0_pay2 x4))
        (k0_pay13 x0 x2 x1 x3 (k0_pay5 x0 x2 x5 x6 x7 x8) (k0_pay6 x0 x2 x5 x6 x7 x8) x11 x12 x9 x10)
        (k0_pay14 x0 x2 x1 x3 (k0_pay5 x0 x2 x5 x6 x7 x8) (k0_pay6 x0 x2 x5 x6 x7 x8) x11 x12 x9 x10) (ix2 p q)
      = Cert.Gru.sessRow (wts x5 x6 x7 x8 x9 x10 x11 x12) (fun i => x4 (ix2 p i)) (fun t => x0 (ix2 p t)) (fun t => x2 (ix2 p t))
          (x1 (ix2 p (0 : Fin 1))) (x3 (ix2 p (0 : Fin 1))) q := by
  have e : (fun t => k0_pay8 (F := Ideal) x0 x2 x1 x3 (k0_pay5 x0 x2 x5 x6 x7 x8) (k0_pay6 x0 x2 x5 x6 x7 x8) x11 x12 (ix2 p t))
      = Cert.Gru.midRow (wts x5 x6 x7 x8 x9 x10 x11 x12) (fun t => x0 (ix2 p t)) (fun t => x2 (ix2 p t))
          (x1 (ix2 p (0 : Fin 1))) (x3 (ix2 p (0 : Fin 1))) :=
    funext fun t => mid_row x0 x1 x2 x3 x5 x6 x7 x8 x9 x10 x11 x12 p t
  rw [pay1_at, pay10_at, pay11_at, pay12_at, pay13_at, pay14_at, pay9_at, pay9_at, pay9_at, e, mid_row]
  rfl

/-! ## The second kernel's payload at an entry -/

/-- `A Wᵀ` for a `1024 × 512` block `A` and `2560` output rows, into zeros: `Σₜ A[p, t] · W[q, t]`. -/
private theorem mm2560 (A : FVec Ideal S1024x512 .bf16) (B : FVec Ideal S2560x512 .bf16) (p : Fin 1024) (q : Fin 2560) :
    matmul dot_S1024x512_S2560x512_S1024x2560_1_1_0_0_n_n none A B (constant (F := Ideal) S1024x2560 .f32 0x00000000#32) (ix2 p q)
      = ∑ t : Fin 512, A (ix2 p t) * B (ix2 q t) := by
  unfold dot_S1024x512_S2560x512_S1024x2560_1_1_0_0_n_n
  exact StackDots.matmul_nt_zero_apply _ none A B p q

private theorem score_at (x0 : Vec Ideal S1024x512 .bf16) (x1 : Vec Ideal S2560x512 .bf16) (x2 : Vec Ideal S1x2560 .f32)
    (p : Fin 1024) (q : Fin 2560) :
    k1_pay1 (F := Ideal) x0 x1 x2 (ix2 p q)
      = Cert.Gru.score (fun t => x0 (ix2 p t)) (fun t => x1 (ix2 q t)) (x2 (ix2 (0 : Fin 1) q)) := by
  unfold k1_pay1
  simp only [shapeCast_self]
  rw [tanh_at, addf_apply, mm2560, MatrixReads.rowBroadcast_apply 1024 2560 _ broadcasts_S1x2560_S1024x2560 p q]
  rfl

/-! ## The stored blocks -/

/-- Two zero offsets, however spelt. -/
private theorem hz : (![0, 0] : Fin 2 → Nat) = fun _ => 0 := by
  funext a; match a with | ⟨0, _⟩ => rfl | ⟨1, _⟩ => rfl

/-- The new user state the first kernel stores, at row `p` and column `q` of its block. -/
theorem user_block (x0 : Vec Ideal S256x512 .f32) (x1 : Vec Ideal S256x1 .f32) (x2 : Vec Ideal S256x512 .f32) (x3 : Vec Ideal S256x1 .f32) (x4 : Vec Ideal S256x1536 .f32) (x5 : Vec Ideal S1536x512 .f32) (x6 : Vec Ideal S1x1536 .f32) (x7 : Vec Ideal S1536x512 .f32) (x8 : Vec Ideal S1x1536 .f32) (x9 : Vec Ideal S1536x512 .f32) (x10 : Vec Ideal S1x1536 .f32) (x11 : Vec Ideal S512x512 .f32) (x12 : Vec Ideal S1x512 .f32) (p : Fin 256) (q : Fin 512) :
    out0_14 (F := Ideal) x0 x1 x2 x3 x4 x5 x6 x7 x8 x9 x10 x11 x12 (ix2 p q)
      = Cert.Gru.userRow (wts x5 x6 x7 x8 x9 x10 x11 x12) (fun t => x0 (ix2 p t)) (fun t => x2 (ix2 p t))
          (x1 (ix2 p (0 : Fin 1))) (x3 (ix2 p (0 : Fin 1))) q := by
  unfold out0_14
  rw [View.canon_unit_zero hz]
  simp only [View.ld_unit_zero (S := S256x512) hz, View.ld_unit_zero (S := S256x1) hz,
    View.ld_unit_zero (S := S1536x512) hz, View.ld_unit_zero (S := S1x1536) hz]
  exact user_row x0 x1 x2 x3 x5 x6 x7 x8 x9 x10 x11 x12 p q

/-- The new session state the first kernel stores, at row `p` and column `q` of its block. -/
theorem sess_block (x0 : Vec Ideal S256x512 .f32) (x1 : Vec Ideal S256x1 .f32) (x2 : Vec Ideal S256x512 .f32) (x3 : Vec Ideal S256x1 .f32) (x4 : Vec Ideal S256x1536 .f32) (x5 : Vec Ideal S1536x512 .f32) (x6 : Vec Ideal S1x1536 .f32) (x7 : Vec Ideal S1536x512 .f32) (x8 : Vec Ideal S1x1536 .f32) (x9 : Vec Ideal S1536x512 .f32) (x10 : Vec Ideal S1x1536 .f32) (x11 : Vec Ideal S512x512 .f32) (x12 : Vec Ideal S1x512 .f32) (p : Fin 256) (q : Fin 512) :
    out0_13 (F := Ideal) x0 x1 x2 x3 x4 x5 x6 x7 x8 x9 x10 x11 x12 (ix2 p q)
      = Cert.Gru.sessRow (wts x5 x6 x7 x8 x9 x10 x11 x12) (fun i => x4 (ix2 p i)) (fun t => x0 (ix2 p t)) (fun t => x2 (ix2 p t))
          (x1 (ix2 p (0 : Fin 1))) (x3 (ix2 p (0 : Fin 1))) q := by
  unfold out0_13
  rw [View.canon_unit_zero hz]
  simp only [View.ld_unit_zero (S := S256x512) hz, View.ld_unit_zero (S := S256x1) hz, View.ld_unit_zero (S := S256x1536) hz,
    View.ld_unit_zero (S := S1536x512) hz, View.ld_unit_zero (S := S1x1536) hz, View.ld_unit_zero (S := S512x512) hz,
    View.ld_unit_zero (S := S1x512) hz]
  exact sess_row x0 x1 x2 x3 x4 x5 x6 x7 x8 x9 x10 x11 x12 p q

/-- The score the second kernel stores, at row `p` and column `q` of its block. -/
theorem score_block (x0 : Vec Ideal S1024x512 .bf16) (x1 : Vec Ideal S2560x512 .bf16) (x2 : Vec Ideal S1x2560 .f32)
    (p : Fin 1024) (q : Fin 2560) :
    out1_3 (F := Ideal) x0 x1 x2 (ix2 p q)
      = Cert.Gru.score (fun t => x0 (ix2 p t)) (fun t => x1 (ix2 q t)) (x2 (ix2 (0 : Fin 1) q)) := by
  unfold out1_3
  rw [View.canon_unit_zero hz]
  simp only [View.ld_unit_zero (S := S1024x512) hz, View.ld_unit_zero (S := S2560x512) hz, View.ld_unit_zero (S := S1x2560) hz]
  exact score_at x0 x1 x2 p q

end Cert.KernelIdeal.Rows

end
-- ==== Proof.KernelArrays.lean ====
/-
  From blocks to whole arrays: what each pallas_call leaves in its output arrays.

  The first call's grid has 8 points; point `t` works on batch rows `256 t … 256 t + 255` of the two states, the two
  gates and the input projection, with every weight block the whole weight array, and writes rows `256 t …` of both
  outputs. So entry `(p, q)` of an output array is what point `p / 256` stored at row `p % 256`: the step's row
  function of row `p` of the arrays as the call finds them. The second call's grid is 2 × 20; point `(i, j)` works
  on session rows `1024 i …` and output rows `2560 j …`, and writes that tile of the (padded) score array. The blocks
  tile the arrays, so every entry is covered.
-/
import proofs.«169456_j64295660421643_1_alg».proof.Proof.KernelRows
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The first call: the index maps over its 8 points -/

/-- The row-blocked windows (the two states, the two gates, the input projection, both outputs) sit at block
    `(t, 0)` at point `t`; every weight window sits at block `(0, 0)`. -/
theorem rowIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem weightIndex : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## The first call: each input block read off its array -/

/-- Row `p` of the first state block at point `t` is row `256 t + p` of its array. -/
theorem stateABlock_apply (c : Dev nD) (t : Fin cfg0.N) (p : Fin 256) (k : Fin 512) (P : Fin 2048)
    (hP : P.val = 256 * t.val + p.val) :
    (iblk0 (F := Ideal) V c 0 t : Vec Ideal S256x512 .f32) (ix2 p k) = (V c main_arg1 : S2048x512.Idx → Elt Ideal .f32) (ix2 P k) := by
  obtain ⟨⟨e0, e1⟩, -, -, -, -, -, -⟩ := rowIndex t
  unfold iblk0
  rw [View.read_apply]
  show (V c main_arg1 : S2048x512.Idx → Elt Ideal .f32) _ = _
  refine congrArg _ (funext fun a => Fin.ext ?_)
  match a with
  | ⟨0, _⟩ => show win0_0.index t (0 : Fin 2) * 256 + 1 * p.val = P.val; rw [e0, hP]; omega
  | ⟨1, _⟩ => show win0_0.index t (1 : Fin 2) * 512 + 1 * k.val = k.val; rw [e1]; omega

/-- Row `p` of the first gate block at point `t` is row `256 t + p` of its array. -/
theorem gateABlock_apply (c : Dev nD) (t : Fin cfg0.N) (p : Fin 256) (k : Fin 1) (P : Fin 2048)
    (hP : P.val = 256 * t.val + p.val) :
    (iblk0 (F := Ideal) V c 1 t : Vec Ideal S256x1 .f32) (ix2 p k) = (V c main_arg2 : S2048x1.Idx → Elt Ideal .f32) (ix2 P k) := by
  obtain ⟨-, ⟨e0, e1⟩, -, -, -, -, -⟩ := rowIndex t
  unfold iblk0
  rw [View.read_apply]
  show (V c main_arg2 : S2048x1.Idx → Elt Ideal .f32) _ = _
  refine congrArg _ (funext fun a => Fin.ext ?_)
  match a with
  | ⟨0, _⟩ => show win0_1.index t (0 : Fin 2) * 256 + 1 * p.val = P.val; rw [e0, hP]; omega
  | ⟨1, _⟩ => show win0_1.index t (1 : Fin 2) * 1 + 1 * k.val = k.val; rw [e1]; omega

/-- Row `p` of the second state block at point `t` is row `256 t + p` of its array. -/
theorem stateBBlock_apply (c : Dev nD) (t : Fin cfg0.N) (p : Fin 256) (k : Fin 512) (P : Fin 2048)
    (hP : P.val = 256 * t.val + p.val) :
    (iblk0 (F := Ideal) V c 2 t : Vec Ideal S256x512 .f32) (ix2 p k) = (V c main_arg3 : S2048x512.Idx → Elt Ideal .f32) (ix2 P k) := by
  obtain ⟨-, -, ⟨e0, e1⟩, -, -, -, -⟩ := rowIndex t
  unfold iblk0
  rw [View.read_apply]
  show (V c main_arg3 : S2048x512.Idx → Elt Ideal .f32) _ = _
  refine congrArg _ (funext fun a => Fin.ext ?_)
  match a with
  | ⟨0, _⟩ => show win0_2.index t (0 : Fin 2) * 256 + 1 * p.val = P.val; rw [e0, hP]; omega
  | ⟨1, _⟩ => show win0_2.index t (1 : Fin 2) * 512 + 1 * k.val = k.val; rw [e1]; omega

/-- Row `p` of the second gate block at point `t` is row `256 t + p` of its array. -/
theorem gateBBlock_apply (c : Dev nD) (t : Fin cfg0.N) (p : Fin 256) (k : Fin 1) (P : Fin 2048)
    (hP : P.val = 256 * t.val + p.val) :
    (iblk0 (F := Ideal) V c 3 t : Vec Ideal S256x1 .f32) (ix2 p k) = (V c main_arg4 : S2048x1.Idx → Elt Ideal .f32) (ix2 P k) := by
  obtain ⟨-, -, -, ⟨e0, e1⟩, -, -, -⟩ := rowIndex t
  unfold iblk0
  rw [View.read_apply]
  show (V c main_arg4 : S2048x1.Idx → Elt Ideal .f32) _ = _
  refine congrArg _ (funext fun a => Fin.ext ?_)
  match a with
  | ⟨0, _⟩ => show win0_3.index t (0 : Fin 2) * 256 + 1 * p.val = P.val; rw [e0, hP]; omega
  | ⟨1, _⟩ => show win0_3.index t (1 : Fin 2) * 1 + 1 * k.val = k.val; rw [e1]; omega

/-- Row `p` of the input-projection block at point `t` is row `256 t + p` of its array. -/
theorem projBlock_apply (c : Dev nD) (t : Fin cfg0.N) (p : Fin 256) (k : Fin 1536) (P : Fin 2048)
    (hP : P.val = 256 * t.val + p.val) :
    (iblk0 (F := Ideal) V c 4 t : Vec Ideal S256x1536 .f32) (ix2 p k) = (V c main_v10 : S2048x1536.Idx → Elt Ideal .f32) (ix2 P k) := by
  obtain ⟨-, -, -, -, ⟨e0, e1⟩, -, -⟩ := rowIndex t
  unfold iblk0
  rw [View.read_apply]
  show (V c main_v10 : S2048x1536.Idx → Elt Ideal .f32) _ = _
  refine congrArg _ (funext fun a => Fin.ext ?_)
  match a with
  | ⟨0, _⟩ => show win0_4.index t (0 : Fin 2) * 256 + 1 * p.val = P.val; rw [e0, hP]; omega
  | ⟨1, _⟩ => show win0_4.index t (1 : Fin 2) * 1536 + 1 * k.val = k.val; rw [e1]; omega

/-- Every weight block is its whole array, at every point. -/
theorem weightBlock5 (c : Dev nD) (t : Fin cfg0.N) :
    (iblk0 (F := Ideal) V c 5 t : Vec Ideal S1536x512 .f32) = (V c main_arg9 : S1536x512.Idx → Elt Ideal .f32) := by
  obtain ⟨⟨e0, e1⟩, -, -, -, -, -, -, -⟩ := weightIndex t
  funext y
  unfold iblk0
  rw [View.read_apply]
  show (V c main_arg9 : S1536x512.Idx → Elt Ideal .f32) _ = _
  refine congrArg _ (funext fun a => Fin.ext ?_)
  match a with
  | ⟨0, _⟩ => show win0_5.index t (0 : Fin 2) * 1536 + 1 * (y 0).val = (y 0).val; rw [e0]; omega
  | ⟨1, _⟩ => show win0_5.index t (1 : Fin 2) * 512 + 1 * (y 1).val = (y 1).val; rw [e1]; omega

theorem weightBlock6 (c : Dev nD) (t : Fin cfg0.N) :
    (iblk0 (F := Ideal) V c 6 t : Vec Ideal S1x1536 .f32) = (V c main_v11 : S1x1536.Idx → Elt Ideal .f32) := by
  obtain ⟨-, ⟨e0, e1⟩, -, -, -, -, -, -⟩ := weightIndex t
  funext y
  unfold iblk0
  rw [View.read_apply]
  show (V c main_v11 : S1x1536.Idx → Elt Ideal .f32) _ = _
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 1536 + 1 * (y 1).val = (y 1).val; rw [e1]; omega

theorem weightBlock7 (c : Dev nD) (t : Fin cfg0.N) :
    (iblk0 (F := Ideal) V c 7 t : Vec Ideal S1536x512 .f32) = (V c main_arg11 : S1536x512.Idx → Elt Ideal .f32) := by
  obtain ⟨-, -, ⟨e0, e1⟩, -, -, -, -, -⟩ := weightIndex t
  funext y
  unfold iblk0
  rw [View.read_apply]
  show (V c main_arg11 : S1536x512.Idx → Elt Ideal .f32) _ = _
  refine congrArg _ (funext fun a => Fin.ext ?_)
  match a with
  | ⟨0, _⟩ => show win0_7.index t (0 : Fin 2) * 1536 + 1 * (y 0).val = (y 0).val; rw [e0]; omega
  | ⟨1, _⟩ => show win0_7.index t (1 : Fin 2) * 512 + 1 * (y 1).val = (y 1).val; rw [e1]; omega

theorem weightBlock8 (c : Dev nD) (t : Fin cfg0.N) :
    (iblk0 (F := Ideal) V c 8 t : Vec Ideal S1x1536 .f32) = (V c main_v12 : S1x1536.Idx → Elt Ideal .f32) := by
  obtain ⟨-, -, -, ⟨e0, e1⟩, -, -, -, -⟩ := weightIndex t
  funext y
  unfold iblk0
  rw [View.read_apply]
  show (V c main_v12 : S1x1536.Idx → Elt Ideal .f32) _ = _
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 1536 + 1 * (y 1).val = (y 1).val; rw [e1]; omega

theorem weightBlock9 (c : Dev nD) (t : Fin cfg0.N) :
    (iblk0 (F := Ideal) V c 9 t : Vec Ideal S1536x512 .f32) = (V c main_arg7 : S1536x512.Idx → Elt Ideal .f32) := by
  obtain ⟨-, -, -, -, ⟨e0, e1⟩, -, -, -⟩ := weightIndex t
  funext y
  unfold iblk0
  rw [View.read_apply]
  show (V c main_arg7 : S1536x512.Idx → Elt Ideal .f32) _ = _
  refine congrArg _ (funext fun a => Fin.ext ?_)
  match a with
  | ⟨0, _⟩ => show win0_9.index t (0 : Fin 2) * 1536 + 1 * (y 0).val = (y 0).val; rw [e0]; omega
  | ⟨1, _⟩ => show win0_9.index t (1 : Fin 2) * 512 + 1 * (y 1).val = (y 1).val; rw [e1]; omega

theorem weightBlock10 (c : Dev nD) (t : Fin cfg0.N) :
    (iblk0 (F := Ideal) V c 10 t : Vec Ideal S1x1536 .f32) = (V c main_v13 : S1x1536.Idx → Elt Ideal .f32) := by
  obtain ⟨-, -, -, -, -, ⟨e0, e1⟩, -, -⟩ := weightIndex t
  funext y
  unfold iblk0
  rw [View.read_apply]
  show (V c main_v13 : S1x1536.Idx → Elt Ideal .f32) _ = _
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 1536 + 1 * (y 1).val = (y 1).val; rw [e1]; omega

theorem weightBlock11 (c : Dev nD) (t : Fin cfg0.N) :
    (iblk0 (F := Ideal) V c 11 t : Vec Ideal S512x512 .f32) = (V c main_arg13 : S512x512.Idx → Elt Ideal .f32) := by
  obtain ⟨-, -, -, -, -, -, ⟨e0, e1⟩, -⟩ := weightIndex t
  funext y
  unfold iblk0
  rw [View.read_apply]
  show (V c main_arg13 : S512x512.Idx → Elt Ideal .f32) _ = _
  refine congrArg _ (funext fun a => Fin.ext ?_)
  match a with
  | ⟨0, _⟩ => show win0_11.index t (0 : Fin 2) * 512 + 1 * (y 0).val = (y 0).val; rw [e0]; omega
  | ⟨1, _⟩ => show win0_11.index t (1 : Fin 2) * 512 + 1 * (y 1).val = (y 1).val; rw [e1]; omega

theorem weightBlock12 (c : Dev nD) (t : Fin cfg0.N) :
    (iblk0 (F := Ideal) V c 12 t : Vec Ideal S1x512 .f32) = (V c main_v14 : S1x512.Idx → Elt Ideal .f32) := by
  obtain ⟨-, -, -, -, -, -, -, ⟨e0, e1⟩⟩ := weightIndex t
  funext y
  unfold iblk0
  rw [View.read_apply]
  show (V c main_v14 : S1x512.Idx → Elt Ideal .f32) _ = _
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 512 + 1 * (y 1).val = (y 1).val; rw [e1]; omega

/-! ## The first call: the new session array -/

/-- The new session array as one function of the arrays the call finds: at `(r, q)`, the step's session row
    function of row `r`. -/
def sessArray (c : Dev nD) : S2048x512.Idx → Elt Ideal .f32 := fun i =>
  Cert.Gru.sessRow (Rows.wts (V c main_arg9) (V c main_v11) (V c main_arg11) (V c main_v12) (V c main_arg7) (V c main_v13) (V c main_arg13) (V c main_v14))
    (fun k => V c main_v10 (ix2 ⟨(i 0).val, idx2_lt0 i⟩ k)) (fun k => V c main_arg1 (ix2 ⟨(i 0).val, idx2_lt0 i⟩ k)) (fun k => V c main_arg3 (ix2 ⟨(i 0).val, idx2_lt0 i⟩ k))
    (V c main_arg2 (ix2 ⟨(i 0).val, idx2_lt0 i⟩ (0 : Fin 1))) (V c main_arg4 (ix2 ⟨(i 0).val, idx2_lt0 i⟩ (0 : Fin 1))) ⟨(i 1).val, idx2_lt1 i⟩

/-- The session row function of blocks that are row `p` of the blocks at a point is the array's entry at the
    row `P` those block rows come from. -/
theorem sess_point (c : Dev nD) (p : Fin 256) (q : Fin 512) (P : Fin 2048)
    (x0 : Vec Ideal S256x512 .f32) (x1 : Vec Ideal S256x1 .f32) (x2 : Vec Ideal S256x512 .f32) (x3 : Vec Ideal S256x1 .f32) (x4 : Vec Ideal S256x1536 .f32)
    (x5 : Vec Ideal S1536x512 .f32) (x6 : Vec Ideal S1x1536 .f32) (x7 : Vec Ideal S1536x512 .f32) (x8 : Vec Ideal S1x1536 .f32)
    (x9 : Vec Ideal S1536x512 .f32) (x10 : Vec Ideal S1x1536 .f32) (x11 : Vec Ideal S512x512 .f32) (x12 : Vec Ideal S1x512 .f32)
    (h0 : ∀ k : Fin 512, x0 (ix2 p k) = V c main_arg1 (ix2 P k))
    (h1 : x1 (ix2 p (0 : Fin 1)) = V c main_arg2 (ix2 P (0 : Fin 1)))
    (h2 : ∀ k : Fin 512, x2 (ix2 p k) = V c main_arg3 (ix2 P k))
    (h3 : x3 (ix2 p (0 : Fin 1)) = V c main_arg4 (ix2 P (0 : Fin 1)))
    (h4 : ∀ k : Fin 1536, x4 (ix2 p k) = V c main_v10 (ix2 P k))
    (h5 : x5 = V c main_arg9) (h6 : x6 = V c main_v11) (h7 : x7 = V c main_arg11) (h8 : x8 = V c main_v12)
    (h9 : x9 = V c main_arg7) (h10 : x10 = V c main_v13) (h11 : x11 = V c main_arg13) (h12 : x12 = V c main_v14) :
    Cert.Gru.sessRow (Rows.wts x5 x6 x7 x8 x9 x10 x11 x12) (fun i => x4 (ix2 p i)) (fun t => x0 (ix2 p t)) (fun t => x2 (ix2 p t))
        (x1 (ix2 p (0 : Fin 1))) (x3 (ix2 p (0 : Fin 1))) q
      = sessArray V c (ix2 P q) := by
  subst h5 h6 h7 h8 h9 h10 h11 h12
  rw [funext h0, funext h2, funext h4, h1, h3]
  rfl

/-- What point `t` writes back to the new session array is block `t` of `sessArray`. -/
theorem sess_flushed (c : Dev nD) (t : Fin cfg0.N) :
    (dat0 (F := Ideal) V c).flushed 13 t = ((cfg0.win 13).blk t).view.read (Elt Ideal) (sessArray V c) := by
  show (cfg0.win 13).cut (grid0.coords t) ((dat0 (F := Ideal) V c).after 13 t) = _
  rw [after0_13]
  funext j
  obtain ⟨p, q, rfl⟩ : ∃ (p : Fin 256) (q : Fin 512), j = ix2 p q := ⟨j 0, j 1, eq_ix2 j⟩
  have ht : t.val < 8 := t.isLt
  have hP : 256 * t.val + p.val < 2048 := by omega
  obtain ⟨-, -, -, -, -, ⟨e0, e1⟩, -⟩ := rowIndex t
  refine (Rows.sess_block (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) p q).trans ?_
  rw [View.read_apply]
  have hemb : (((cfg0.win 13).blk t).view.emb (ix2 p q) : S2048x512.Idx) = ix2 (⟨256 * t.val + p.val, hP⟩ : Fin 2048) q := by
    funext a
    apply Fin.ext
    match a with
    | ⟨0, _⟩ => show win0_13.index t (0 : Fin 2) * 256 + 1 * p.val = 256 * t.val + p.val; rw [e0]; omega
    | ⟨1, _⟩ => show win0_13.index t (1 : Fin 2) * 512 + 1 * q.val = q.val; rw [e1]; omega
  refine Eq.trans ?_ (congrArg (sessArray V c) hemb).symm
  exact sess_point V c p q ⟨256 * t.val + p.val, hP⟩ _ _ _ _ _ _ _ _ _ _ _ _ _
    (fun k => stateABlock_apply V c t p k _ rfl) (gateABlock_apply V c t p 0 _ rfl)
    (fun k => stateBBlock_apply V c t p k _ rfl) (gateBBlock_apply V c t p 0 _ rfl)
    (fun k => projBlock_apply V c t p k _ rfl)
    (weightBlock5 V c t) (weightBlock6 V c t) (weightBlock7 V c t) (weightBlock8 V c t)
    (weightBlock9 V c t) (weightBlock10 V c t) (weightBlock11 V c t) (weightBlock12 V c t)

/-- An index of the new session array is in point `t`'s block iff each coordinate is in the block's range. -/
theorem mem_sessBlk (t : Fin cfg0.N) (i : S2048x512.Idx) :
    i ∈ ((cfg0.win 13).blk t).view.set ↔ ∀ a : Fin 2, win0_13.index t a * S256x512.size a ≤ (i a).val ∧ (i a).val < win0_13.index t a * S256x512.size a + S256x512.size a := by
  show i ∈ ((View.whole main_v15_0).slice (win0_13.rect t)).set ↔ _
  rw [View.set_slice_whole, Rect.mem_set_unit]
  exact Iff.rfl

/-- Row `r` of the new session array is in the block of point `r / 256`. -/
theorem sess_cover (i : S2048x512.Idx) :
    ∃ t : Fin cfg0.N, (cfg0.win 13).flush t = true ∧ i ∈ ((cfg0.win 13).blk t).view.set := by
  have h0 : (i 0).val < 2048 := idx2_lt0 i
  have h1 : (i 1).val < 512 := idx2_lt1 i
  have ht : (i 0).val / 256 < 8 := by omega
  refine ⟨⟨(i 0).val / 256, ht⟩, flush0_13 _, ?_⟩
  obtain ⟨-, -, -, -, -, ⟨e0, e1⟩, -⟩ := rowIndex ⟨(i 0).val / 256, ht⟩
  rw [mem_sessBlk]
  intro a
  match a with
  | ⟨0, _⟩ =>
    show win0_13.index ⟨(i 0).val / 256, ht⟩ (0 : Fin 2) * 256 ≤ (i 0).val ∧ (i 0).val < win0_13.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_13.index ⟨(i 0).val / 256, ht⟩ (1 : Fin 2) * 512 ≤ (i 1).val ∧ (i 1).val < win0_13.index ⟨(i 0).val / 256, ht⟩ (1 : Fin 2) * 512 + 512
    rw [e1]; omega

/-- The new session array after the first call. -/
theorem sess_final (c : Dev nD) : (dat0 (F := Ideal) V c).arrAt 13 cfg0.N = sessArray V c :=
  (dat0 (F := Ideal) V c).arrAt_eq_of_cover 13 (sessArray V c) (fun t _ => sess_flushed V c t) sess_cover

/-! ## The first call: the new user array -/

/-- The new user array as one function of the arrays the call finds: at `(r, q)`, the step's user row function
    of row `r`. -/
def userArray (c : Dev nD) : S2048x512.Idx → Elt Ideal .f32 := fun i =>
  Cert.Gru.userRow (Rows.wts (V c main_arg9) (V c main_v11) (V c main_arg11) (V c main_v12) (V c main_arg7) (V c main_v13) (V c main_arg13) (V c main_v14))
    (fun k => V c main_arg1 (ix2 ⟨(i 0).val, idx2_lt0 i⟩ k)) (fun k => V c main_arg3 (ix2 ⟨(i 0).val, idx2_lt0 i⟩ k))
    (V c main_arg2 (ix2 ⟨(i 0).val, idx2_lt0 i⟩ (0 : Fin 1))) (V c main_arg4 (ix2 ⟨(i 0).val, idx2_lt0 i⟩ (0 : Fin 1))) ⟨(i 1).val, idx2_lt1 i⟩

/-- The user row function of blocks that are row `p` of the blocks at a point is the array's entry at the row
    `P` those block rows come from. -/
theorem user_point (c : Dev nD) (p : Fin 256) (q : Fin 512) (P : Fin 2048)
    (x0 : Vec Ideal S256x512 .f32) (x1 : Vec Ideal S256x1 .f32) (x2 : Vec Ideal S256x512 .f32) (x3 : Vec Ideal S256x1 .f32)
    (x5 : Vec Ideal S1536x512 .f32) (x6 : Vec Ideal S1x1536 .f32) (x7 : Vec Ideal S1536x512 .f32) (x8 : Vec Ideal S1x1536 .f32)
    (x9 : Vec Ideal S1536x512 .f32) (x10 : Vec Ideal S1x1536 .f32) (x11 : Vec Ideal S512x512 .f32) (x12 : Vec Ideal S1x512 .f32)
    (h0 : ∀ k : Fin 512, x0 (ix2 p k) = V c main_arg1 (ix2 P k))
    (h1 : x1 (ix2 p (0 : Fin 1)) = V c main_arg2 (ix2 P (0 : Fin 1)))
    (h2 : ∀ k : Fin 512, x2 (ix2 p k) = V c main_arg3 (ix2 P k))
    (h3 : x3 (ix2 p (0 : Fin 1)) = V c main_arg4 (ix2 P (0 : Fin 1)))
    (h5 : x5 = V c main_arg9) (h6 : x6 = V c main_v11) (h7 : x7 = V c main_arg11) (h8 : x8 = V c main_v12)
    (h9 : x9 = V c main_arg7) (h10 : x10 = V c main_v13) (h11 : x11 = V c main_arg13) (h12 : x12 = V c main_v14) :
    Cert.Gru.userRow (Rows.wts x5 x6 x7 x8 x9 x10 x11 x12) (fun t => x0 (ix2 p t)) (fun t => x2 (ix2 p t))
        (x1 (ix2 p (0 : Fin 1))) (x3 (ix2 p (0 : Fin 1))) q
      = userArray V c (ix2 P q) := by
  subst h5 h6 h7 h8 h9 h10 h11 h12
  rw [funext h0, funext h2, h1, h3]
  rfl

/-- What point `t` writes back to the new user array is block `t` of `userArray`. -/
theorem user_flushed (c : Dev nD) (t : Fin cfg0.N) :
    (dat0 (F := Ideal) V c).flushed 14 t = ((cfg0.win 14).blk t).view.read (Elt Ideal) (userArray V c) := by
  show (cfg0.win 14).cut (grid0.coords t) ((dat0 (F := Ideal) V c).after 14 t) = _
  rw [after0_14]
  funext j
  obtain ⟨p, q, rfl⟩ : ∃ (p : Fin 256) (q : Fin 512), j = ix2 p q := ⟨j 0, j 1, eq_ix2 j⟩
  have ht : t.val < 8 := t.isLt
  have hP : 256 * t.val + p.val < 2048 := by omega
  obtain ⟨-, -, -, -, -, -, e0, e1⟩ := rowIndex t
  refine (Rows.user_block (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) p q).trans ?_
  rw [View.read_apply]
  have hemb : (((cfg0.win 14).blk t).view.emb (ix2 p q) : S2048x512.Idx) = ix2 (⟨256 * t.val + p.val, hP⟩ : Fin 2048) q := by
    funext a
    apply Fin.ext
    match a with
    | ⟨0, _⟩ => show win0_14.index t (0 : Fin 2) * 256 + 1 * p.val = 256 * t.val + p.val; rw [e0]; omega
    | ⟨1, _⟩ => show win0_14.index t (1 : Fin 2) * 512 + 1 * q.val = q.val; rw [e1]; omega
  refine Eq.trans ?_ (congrArg (userArray V c) hemb).symm
  exact user_point V c p q ⟨256 * t.val + p.val, hP⟩ _ _ _ _ _ _ _ _ _ _ _ _
    (fun k => stateABlock_apply V c t p k _ rfl) (gateABlock_apply V c t p 0 _ rfl)
    (fun k => stateBBlock_apply V c t p k _ rfl) (gateBBlock_apply V c t p 0 _ rfl)
    (weightBlock5 V c t) (weightBlock6 V c t) (weightBlock7 V c t) (weightBlock8 V c t)
    (weightBlock9 V c t) (weightBlock10 V c t) (weightBlock11 V c t) (weightBlock12 V c t)

/-- An index of the new user array is in point `t`'s block iff each coordinate is in the block's range. -/
theorem mem_userBlk (t : Fin cfg0.N) (i : S2048x512.Idx) :
    i ∈ ((cfg0.win 14).blk t).view.set ↔ ∀ a : Fin 2, win0_14.index t a * S256x512.size a ≤ (i a).val ∧ (i a).val < win0_14.index t a * S256x512.size a + S256x512.size a := by
  show i ∈ ((View.whole main_v15_1).slice (win0_14.rect t)).set ↔ _
  rw [View.set_slice_whole, Rect.mem_set_unit]
  exact Iff.rfl

/-- Row `r` of the new user array is in the block of point `r / 256`. -/
theorem user_cover (i : S2048x512.Idx) :
    ∃ t : Fin cfg0.N, (cfg0.win 14).flush t = true ∧ i ∈ ((cfg0.win 14).blk t).view.set := by
  have h0 : (i 0).val < 2048 := idx2_lt0 i
  have h1 : (i 1).val < 512 := idx2_lt1 i
  have ht : (i 0).val / 256 < 8 := by omega
  refine ⟨⟨(i 0).val / 256, ht⟩, flush0_14 _, ?_⟩
  obtain ⟨-, -, -, -, -, -, e0, e1⟩ := rowIndex ⟨(i 0).val / 256, ht⟩
  rw [mem_userBlk]
  intro a
  match a with
  | ⟨0, _⟩ =>
    show win0_14.index ⟨(i 0).val / 256, ht⟩ (0 : Fin 2) * 256 ≤ (i 0).val ∧ (i 0).val < win0_14.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_14.index ⟨(i 0).val / 256, ht⟩ (1 : Fin 2) * 512 ≤ (i 1).val ∧ (i 1).val < win0_14.index ⟨(i 0).val / 256, ht⟩ (1 : Fin 2) * 512 + 512
    rw [e1]; omega

/-- The new user array after the first call. -/
theorem user_final (c : Dev nD) : (dat0 (F := Ideal) V c).arrAt 14 cfg0.N = userArray V c :=
  (dat0 (F := Ideal) V c).arrAt_eq_of_cover 14 (userArray V c) (fun t _ => user_flushed V c t) user_cover

/-! ## The second call: the index maps over its 2 × 20 points -/

/-- Point `t` is tile `(t / 20, t % 20)`: the session window sits at block `(t / 20, 0)`, the output-row window at
    `(t % 20, 0)`, the bias window at `(0, t % 20)`, the score window at `(t / 20, t % 20)`. -/
theorem tileIndex : ∀ t : Fin cfg1.N,
    (win1_0.index t (0 : Fin 2) = t.val / 20 ∧ win1_0.index t (1 : Fin 2) = 0)
    ∧ (win1_1.index t (0 : Fin 2) = t.val % 20 ∧ win1_1.index t (1 : Fin 2) = 0)
    ∧ (win1_2.index t (0 : Fin 2) = 0 ∧ win1_2.index t (1 : Fin 2) = t.val % 20)
    ∧ (win1_3.index t (0 : Fin 2) = t.val / 20 ∧ win1_3.index t (1 : Fin 2) = t.val % 20) :=
  (by decide +kernel : ∀ t : Fin grid1.N, _)

/-! ## The second call: each input block read off its array -/

/-- Row `p` of the session block at point `t` is row `1024 (t / 20) + p` of the session array. -/
theorem sessTile_apply (c : Dev nD) (t : Fin cfg1.N) (p : Fin 1024) (k : Fin 512) (P : Fin 2048)
    (hP : P.val = 1024 * (t.val / 20) + p.val) :
    (iblk1 (F := Ideal) V c 0 t : Vec Ideal S1024x512 .bf16) (ix2 p k) = (V c main_v16 : S2048x512.Idx → Elt Ideal .bf16) (ix2 P k) := by
  obtain ⟨⟨e0, e1⟩, -, -, -⟩ := tileIndex t
  unfold iblk1
  rw [View.read_apply]
  show (V c main_v16 : S2048x512.Idx → Elt Ideal .bf16) _ = _
  refine congrArg _ (funext fun a => Fin.ext ?_)
  match a with
  | ⟨0, _⟩ => show win1_0.index t (0 : Fin 2) * 1024 + 1 * p.val = P.val; rw [e0, hP]; omega
  | ⟨1, _⟩ => show win1_0.index t (1 : Fin 2) * 512 + 1 * k.val = k.val; rw [e1]; omega

/-- Row `q` of the output-row block at point `t` is row `2560 (t % 20) + q` of the output-row array. -/
theorem outTile_apply (c : Dev nD) (t : Fin cfg1.N) (q : Fin 2560) (k : Fin 512) (Q : Fin 51200)
    (hQ : Q.val = 2560 * (t.val % 20) + q.val) :
    (iblk1 (F := Ideal) V c 1 t : Vec Ideal S2560x512 .bf16) (ix2 q k) = (V c main_v18 : S51200x512.Idx → Elt Ideal .bf16) (ix2 Q k) := by
  obtain ⟨-, ⟨e0, e1⟩, -, -⟩ := tileIndex t
  unfold iblk1
  rw [View.read_apply]
  show (V c main_v18 : S51200x512.Idx → Elt Ideal .bf16) _ = _
  refine congrArg _ (funext fun a => Fin.ext ?_)
  match a with
  | ⟨0, _⟩ => show win1_1.index t (0 : Fin 2) * 2560 + 1 * q.val = Q.val; rw [e0, hQ]; omega
  | ⟨1, _⟩ => show win1_1.index t (1 : Fin 2) * 512 + 1 * k.val = k.val; rw [e1]; omega

/-- Entry `q` of the bias block at point `t` is entry `2560 (t % 20) + q` of the bias row. -/
theorem biasTile_apply (c : Dev nD) (t : Fin cfg1.N) (q : Fin 2560) (Q : Fin 51200)
    (hQ : Q.val = 2560 * (t.val % 20) + q.val) :
    (iblk1 (F := Ideal) V c 2 t : Vec Ideal S1x2560 .f32) (ix2 (0 : Fin 1) q) = (V c main_v20 : S1x51200.Idx → Elt Ideal .f32) (ix2 (0 : Fin 1) Q) := by
  obtain ⟨-, -, ⟨e0, e1⟩, -⟩ := tileIndex t
  unfold iblk1
  rw [View.read_apply]
  show (V c main_v20 : S1x51200.Idx → Elt Ideal .f32) _ = _
  refine congrArg _ (funext fun a => Fin.ext ?_)
  match a with
  | ⟨0, _⟩ => show win1_2.index t (0 : Fin 2) * 1 + 1 * (0 : Fin 1).val = (0 : Fin 1).val; rw [e0]; omega
  | ⟨1, _⟩ => show win1_2.index t (1 : Fin 2) * 2560 + 1 * q.val = Q.val; rw [e1, hQ]; omega

/-! ## The second call: the score array -/

/-- The (padded) score array as one function of the arrays the call finds: at `(r, v)`, the score of session
    row `r` against output row `v`. -/
def scoreArray (c : Dev nD) : S2048x51200.Idx → Elt Ideal .f32 := fun i =>
  Cert.Gru.score (fun k => V c main_v16 (ix2 ⟨(i 0).val, idx2_lt0 i⟩ k)) (fun k => V c main_v18 (ix2 ⟨(i 1).val, idx2_lt1 i⟩ k))
    (V c main_v20 (ix2 (0 : Fin 1) ⟨(i 1).val, idx2_lt1 i⟩))

/-- The score of blocks that are row `p` and row `q` of the blocks at a point is the array's entry at the rows
    `P`, `Q` those block rows come from. -/
theorem score_point (c : Dev nD) (p : Fin 1024) (q : Fin 2560) (P : Fin 2048) (Q : Fin 51200)
    (x0 : Vec Ideal S1024x512 .bf16) (x1 : Vec Ideal S2560x512 .bf16) (x2 : Vec Ideal S1x2560 .f32)
    (h0 : ∀ k : Fin 512, x0 (ix2 p k) = V c main_v16 (ix2 P k))
    (h1 : ∀ k : Fin 512, x1 (ix2 q k) = V c main_v18 (ix2 Q k))
    (h2 : x2 (ix2 (0 : Fin 1) q) = V c main_v20 (ix2 (0 : Fin 1) Q)) :
    Cert.Gru.score (fun t => x0 (ix2 p t)) (fun t => x1 (ix2 q t)) (x2 (ix2 (0 : Fin 1) q)) = scoreArray V c (ix2 P Q) := by
  rw [funext h0, funext h1, h2]
  rfl

/-- What point `t` writes back to the score array is block `t` of `scoreArray`. -/
theorem score_flushed (c : Dev nD) (t : Fin cfg1.N) :
    (dat1 (F := Ideal) V c).flushed 3 t = ((cfg1.win 3).blk t).view.read (Elt Ideal) (scoreArray V c) := by
  show (cfg1.win 3).cut (grid1.coords t) ((dat1 (F := Ideal) V c).after 3 t) = _
  rw [after1_3]
  funext j
  obtain ⟨p, q, rfl⟩ : ∃ (p : Fin 1024) (q : Fin 2560), j = ix2 p q := ⟨j 0, j 1, eq_ix2 j⟩
  have ht : t.val < 40 := t.isLt
  have hP : 1024 * (t.val / 20) + p.val < 2048 := by omega
  have hQ : 2560 * (t.val % 20) + q.val < 51200 := by omega
  obtain ⟨-, -, -, e0, e1⟩ := tileIndex t
  refine (Rows.score_block (iblk1 V c 0 t) (iblk1 V c 1 t) (iblk1 V c 2 t) p q).trans ?_
  rw [View.read_apply]
  have hemb : (((cfg1.win 3).blk t).view.emb (ix2 p q) : S2048x51200.Idx)
      = ix2 (⟨1024 * (t.val / 20) + p.val, hP⟩ : Fin 2048) (⟨2560 * (t.val % 20) + q.val, hQ⟩ : Fin 51200) := by
    funext a
    apply Fin.ext
    match a with
    | ⟨0, _⟩ => show win1_3.index t (0 : Fin 2) * 1024 + 1 * p.val = 1024 * (t.val / 20) + p.val; rw [e0]; omega
    | ⟨1, _⟩ => show win1_3.index t (1 : Fin 2) * 2560 + 1 * q.val = 2560 * (t.val % 20) + q.val; rw [e1]; omega
  refine Eq.trans ?_ (congrArg (scoreArray V c) hemb).symm
  exact score_point V c p q ⟨1024 * (t.val / 20) + p.val, hP⟩ ⟨2560 * (t.val % 20) + q.val, hQ⟩ _ _ _
    (fun k => sessTile_apply V c t p k _ rfl) (fun k => outTile_apply V c t q k _ rfl) (biasTile_apply V c t q _ rfl)

/-- An index of the score array is in point `t`'s block iff each coordinate is in the block's range. -/
theorem mem_scoreBlk (t : Fin cfg1.N) (i : S2048x51200.Idx) :
    i ∈ ((cfg1.win 3).blk t).view.set ↔ ∀ a : Fin 2, win1_3.index t a * S1024x2560.size a ≤ (i a).val ∧ (i a).val < win1_3.index t a * S1024x2560.size a + S1024x2560.size a := by
  show i ∈ ((View.whole main_v21).slice (win1_3.rect t)).set ↔ _
  rw [View.set_slice_whole, Rect.mem_set_unit]
  exact Iff.rfl

/-- Entry `(r, v)` of the score array is in the block of point `(r / 1024, v / 2560)`. -/
theorem score_cover (i : S2048x51200.Idx) :
    ∃ t : Fin cfg1.N, (cfg1.win 3).flush t = true ∧ i ∈ ((cfg1.win 3).blk t).view.set := by
  have h0 : (i 0).val < 2048 := idx2_lt0 i
  have h1 : (i 1).val < 51200 := idx2_lt1 i
  have ht : (i 0).val / 1024 * 20 + (i 1).val / 2560 < 40 := by omega
  refine ⟨⟨(i 0).val / 1024 * 20 + (i 1).val / 2560, ht⟩, flush1_3 _, ?_⟩
  obtain ⟨-, -, -, e0, e1⟩ := tileIndex ⟨(i 0).val / 1024 * 20 + (i 1).val / 2560, ht⟩
  rw [mem_scoreBlk]
  intro a
  match a with
  | ⟨0, _⟩ =>
    show win1_3.index ⟨(i 0).val / 1024 * 20 + (i 1).val / 2560, ht⟩ (0 : Fin 2) * 1024 ≤ (i 0).val
      ∧ (i 0).val < win1_3.index ⟨(i 0).val / 1024 * 20 + (i 1).val / 2560, ht⟩ (0 : Fin 2) * 1024 + 1024
    rw [e0]
    show ((i 0).val / 1024 * 20 + (i 1).val / 2560) / 20 * 1024 ≤ (i 0).val
      ∧ (i 0).val < ((i 0).val / 1024 * 20 + (i 1).val / 2560) / 20 * 1024 + 1024
    omega
  | ⟨1, _⟩ =>
    show win1_3.index ⟨(i 0).val / 1024 * 20 + (i 1).val / 2560, ht⟩ (1 : Fin 2) * 2560 ≤ (i 1).val
      ∧ (i 1).val < win1_3.index ⟨(i 0).val / 1024 * 20 + (i 1).val / 2560, ht⟩ (1 : Fin 2) * 2560 + 2560
    rw [e1]
    show ((i 0).val / 1024 * 20 + (i 1).val / 2560) % 20 * 2560 ≤ (i 1).val
      ∧ (i 1).val < ((i 0).val / 1024 * 20 + (i 1).val / 2560) % 20 * 2560 + 2560
    omega

/-- The score array after the second call. -/
theorem score_final (c : Dev nD) : (dat1 (F := Ideal) V c).arrAt 3 cfg1.N = scoreArray V c :=
  (dat1 (F := Ideal) V c).arrAt_eq_of_cover 3 (scoreArray V c) (fun t _ => score_flushed V c t) score_cover

/-- The first call's new-user array at `(p, q)`. -/
theorem user_array_apply (c : Dev nD) (p : Fin 2048) (q : Fin 512) :
    (dat0 (F := Ideal) V c).arrAt 14 cfg0.N (ix2 p q)
      = Cert.Gru.userRow (Rows.wts (V c main_arg9) (V c main_v11) (V c main_arg11) (V c main_v12) (V c main_arg7) (V c main_v13) (V c main_arg13) (V c main_v14))
          (fun t => V c main_arg1 (ix2 p t)) (fun t => V c main_arg3 (ix2 p t))
          (V c main_arg2 (ix2 p (0 : Fin 1))) (V c main_arg4 (ix2 p (0 : Fin 1))) q := by
  rw [user_final]
  rfl

/-- The first call's new-session array at `(p, q)`. -/
theorem sess_array_apply (c : Dev nD) (p : Fin 2048) (q : Fin 512) :
    (dat0 (F := Ideal) V c).arrAt 13 cfg0.N (ix2 p q)
      = Cert.Gru.sessRow (Rows.wts (V c main_arg9) (V c main_v11) (V c main_arg11) (V c main_v12) (V c main_arg7) (V c main_v13) (V c main_arg13) (V c main_v14))
          (fun i => V c main_v10 (ix2 p i)) (fun t => V c main_arg1 (ix2 p t)) (fun t => V c main_arg3 (ix2 p t))
          (V c main_arg2 (ix2 p (0 : Fin 1))) (V c main_arg4 (ix2 p (0 : Fin 1))) q := by
  rw [sess_final]
  rfl

/-- The second call's (padded) score array at `(p, v)`. -/
theorem score_array_apply (c : Dev nD) (p : Fin 2048) (v : Fin 51200) :
    (dat1 (F := Ideal) V c).arrAt 3 cfg1.N (ix2 p v)
      = Cert.Gru.score (fun t => V c main_v16 (ix2 p t)) (fun t => V c main_v18 (ix2 v t)) (V c main_v20 (ix2 (0 : Fin 1) v)) := by
  rw [score_final]
  rfl

end Cert.KernelIdeal.Arrays

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibRowAffine.lean ====
/-
  Rows through an affine layer, read at a row and a column.

  Three readings on arrays of literal extents. The host's `A Wᵀ` written as "transpose `W`, then the plain product":
  at row `p` and column `q` it is `Σₜ A[p, t] · W[q, t]` on the extended reals — the transpose swaps the two
  coordinates of `W`, and the plain product contracts `A`'s columns with the transposed matrix's rows. A vector made
  a single row and that row repeated down `m` rows reads the vector at the column. A scalar constant spread over any
  shape reads the constant's value.
-/
import Idealize.ShloMosaic.PureOps.Ideal.Laws
import Idealize.ShloMosaic.Lib.ValueIdx
import Idealize.ShloMosaic.Lib.Pipeline.Value
import proofs.«169456_j64295660421643_1_alg».proof.Proof.LibHostDot
import proofs.«169456_j64295660421643_1_alg».proof.Proof.LibMatrixReads

noncomputable section

open scoped BigOperators

namespace Idealize.ShloMosaic.RowAffine

open Idealize.ShloMosaic Idealize.ShloMosaic.ValueIdx

/-- `A Wᵀ` on the host, the transpose taken first: at row `p` and column `q` it is `Σₜ A[p, t] · W[q, t]`. -/
theorem dotGeneral_transposed_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (W : FVec Ideal ⟨2, ![N, K]⟩ φ₂)
    (ht : (⟨2, ![N, K]⟩ : Shape).Transposes [1, 0] ⟨2, ![K, N]⟩) (p : Fin M) (q : Fin N) :
    Host.dotGeneral (⟨[1], [0], [0], [1], [], [], w⟩ : DotDims ⟨2, ![M, K]⟩ ⟨2, ![K, N]⟩ ⟨2, ![M, N]⟩) prec A
        (transpose ⟨2, ![K, N]⟩ [1, 0] W ht) (ix2 p q)
      = ∑ t : Fin K, A (ix2 p t) * W (ix2 q t) := by
  rw [HostDot.dotGeneral_nn_apply]
  refine Finset.sum_congr rfl fun t _ => ?_
  rw [MatrixReads.transpose2_apply]

/-- A vector laid as a single row, the row then repeated down `m` rows: at row `p` and column `q` it is the
    vector's entry `q`. -/
theorem vecDownRows_apply {α : Type} (m n : Nat) (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  have hq := q.isLt
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split_ifs with hn
      · omega
      · rfl)]
  exact broadcastInDim_apply ![1] h1 b (ix2 (0 : Fin 1) q) (ix1 q) (fun a => by
    match a with
    | ⟨0, _⟩ =>
      show q.val = if n = 1 then 0 else q.val
      split_ifs with hn
      · omega
      · rfl)

/-- A scalar float constant spread over a shape reads the constant's value at every index. -/
theorem scalarSpread_apply {t : Shape} (wd : BitVec 32) (h : (⟨0, ![]⟩ : Shape).BroadcastsInDim t ![]) (i : t.Idx) :
    broadcastInDim t ![] h (constant (F := Ideal) ⟨0, ![]⟩ .f32 wd) i = Ideal.ofBits .f32 wd :=
  broadcastInDim_apply ![] h _ i ix0 (fun a => a.elim0)

end Idealize.ShloMosaic.RowAffine

end
-- ==== Proof.LibHostForms.lean ====
/-
  The host's small broadcasts and its row sum, read at coordinates.

  jnp writes `x + b` for a matrix `x` and a vector `b` as two `broadcast_in_dim`s — the vector laid out as one row,
  the row repeated down the matrix — and `keepdims` reductions as a vector laid out as a column, the column then
  repeated along the rows; a scalar constant is broadcast with no axes at all. Read at explicit coordinates each is
  the operand at the evident index. And the host's sum over the second axis of an `a × b` matrix from an initial
  value is, on the extended reals, that value plus `Σₖ x[p, k]`.
-/
import Idealize.ShloMosaic.PureOps.Ideal.Laws
import Idealize.ShloMosaic.Lib.ValueIdx
import Idealize.ShloMosaic.Lib.Pipeline.Value

noncomputable section

open scoped BigOperators

namespace Idealize.ShloMosaic.HostForms

open Idealize.ShloMosaic Idealize.ShloMosaic.ValueIdx

variable {α : Type}

/-- A length-`a` vector laid out as an `a × 1` column reads, at `(p, u)`, the vector at `p`. -/
theorem vecCol_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) :=
  broadcastInDim_apply _ h x (ix2 p u) (ix1 p) fun d => match d with
    | ⟨0, _⟩ => by
      show p.val = if a = 1 then 0 else p.val
      split
      · have := p.isLt; omega
      · rfl

/-- An `a × 1` column repeated along the rows of an `a × c` matrix reads, at `(p, q)`, the column at `(p, 0)`. -/
theorem colMat_apply {a c : ℕ} (v : (⟨2, ![a, 1]⟩ : Shape).Idx → α)
    (h : (⟨2, ![a, 1]⟩ : Shape).BroadcastsInDim ⟨2, ![a, c]⟩ (![0, 1] : Fin 2 → Fin 2)) (p : Fin a) (q : Fin c) :
    broadcastInDim ⟨2, ![a, c]⟩ (![0, 1] : Fin 2 → Fin 2) h v (ix2 p q) = v (ix2 p (0 : Fin 1)) :=
  broadcastInDim_apply _ h v (ix2 p q) (ix2 p (0 : Fin 1)) fun d => match d with
    | ⟨0, _⟩ => by
      show p.val = if a = 1 then 0 else p.val
      split
      · have := p.isLt; omega
      · rfl
    | ⟨1, _⟩ => by
      show (0 : ℕ) = if (1 : ℕ) = 1 then 0 else q.val
      rw [if_pos rfl]

/-- A length-`c` vector laid out as a `1 × c` row reads, at `(u, q)`, the vector at `q`. -/
theorem vecRow_apply {c : ℕ} (x : (⟨1, ![c]⟩ : Shape).Idx → α)
    (h : (⟨1, ![c]⟩ : Shape).BroadcastsInDim ⟨2, ![1, c]⟩ (![1] : Fin 1 → Fin 2)) (u : Fin 1) (q : Fin c) :
    broadcastInDim ⟨2, ![1, c]⟩ (![1] : Fin 1 → Fin 2) h x (ix2 u q) = x (ix1 q) :=
  broadcastInDim_apply _ h x (ix2 u q) (ix1 q) fun d => match d with
    | ⟨0, _⟩ => by
      show q.val = if c = 1 then 0 else q.val
      split
      · have := q.isLt; omega
      · rfl

/-- A `1 × c` row repeated down the rows of an `a × c` matrix reads, at `(p, q)`, the row at `(0, q)`. -/
theorem rowMat_apply {a c : ℕ} (v : (⟨2, ![1, c]⟩ : Shape).Idx → α)
    (h : (⟨2, ![1, c]⟩ : Shape).BroadcastsInDim ⟨2, ![a, c]⟩ (![0, 1] : Fin 2 → Fin 2)) (p : Fin a) (q : Fin c) :
    broadcastInDim ⟨2, ![a, c]⟩ (![0, 1] : Fin 2 → Fin 2) h v (ix2 p q) = v (ix2 (0 : Fin 1) q) :=
  broadcastInDim_apply _ h v (ix2 p q) (ix2 (0 : Fin 1) q) fun d => match d with
    | ⟨0, _⟩ => by
      show (0 : ℕ) = if (1 : ℕ) = 1 then 0 else p.val
      rw [if_pos rfl]
    | ⟨1, _⟩ => by
      show q.val = if c = 1 then 0 else q.val
      split
      · have := q.isLt; omega
      · rfl

/-- A scalar broadcast to any shape reads the scalar everywhere. -/
theorem scalar_apply {t : Shape} (x : (⟨0, ![]⟩ : Shape).Idx → α)
    (h : (⟨0, ![]⟩ : Shape).BroadcastsInDim t (![] : Fin 0 → Fin t.rank)) (i : t.Idx) :
    broadcastInDim t (![] : Fin 0 → Fin t.rank) h x i = x ix0 :=
  broadcastInDim_apply _ h x i ix0 fun d => d.elim0

/-- The host's sum of an `a × b` matrix over its second axis from an initial value reads, at `p`, that value plus
    `Σₖ x[p, k]` over `k : Fin b`. -/
theorem hostRowSum_apply {a b : ℕ} {u : Shape} (x : FVec Ideal ⟨2, ![a, b]⟩ .f32) (init : u.Idx → EReal)
    (h' : (⟨2, ![a, b]⟩ : Shape).ReducesTo [1] ⟨1, ![a]⟩) (hu : 0 < u.numel)
    (h : (⟨2, ![a, b]⟩ : Shape).Reduces [1] ⟨1, ![a]⟩) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  refine congrArg (_ + ·) (Finset.sum_congr rfl fun k _ => congrArg x (funext fun d => Fin.ext ?_))
  match d with
  | ⟨0, _⟩ => rfl
  | ⟨1, _⟩ => rfl

end Idealize.ShloMosaic.HostForms

end
-- ==== Proof.RefRows.lean ====
/-
  The reference program's three results, read one entry at a time.

  Each result entry at batch row `p` is the step's row function (Spec) of row `p` of the states, the gates at row
  `p`, and — for the session — row `p` of the input projection (the gathered table rows plus their bias, kept as
  the array the program computes). The reference spells a weight product as "transpose, then contract", a bias as
  two broadcasts, a third of a 3·512 row as a column slice, and the logistic function as `1 / (1 + e⁻ˣ)`, which
  on the extended reals IS the logistic function (the word of 1.0 denotes 1).
-/
import proofs.«169456_j64295660421643_1_alg».proof.Proof.Gen.ReferenceIdeal.Read
import proofs.«169456_j64295660421643_1_alg».proof.Proof.Spec
import proofs.«169456_j64295660421643_1_alg».proof.Proof.LibRowAffine
import proofs.«169456_j64295660421643_1_alg».proof.Proof.LibHostForms
import Idealize.ShloMosaic.Lib.IdealHost

noncomputable section

open scoped BigOperators

namespace Cert.ReferenceIdeal.Rows

open Cert.ReferenceIdeal Cert.ReferenceIdeal.Read Idealize.ShloMosaic Idealize.ShloMosaic.ValueIdx

/-! ## The reference's spellings, read at a row and a column -/

/-- A weight product with its bias, `A Wᵀ + b` as the reference spells it (the transpose taken first, the bias laid
    out as one row and repeated down the rows): at row `p` and column `q` it is `Σₜ A[p, t] · W[q, t] + b[q]`. -/
theorem affine_apply {M N : Nat}
    (w : DotDims.WF ⟨2, ![M, 512]⟩ ⟨2, ![512, N]⟩ ⟨2, ![M, N]⟩ [1] [0] [0] [1] [] [])
    (A : FVec Ideal ⟨2, ![M, 512]⟩ .f32) (W : FVec Ideal ⟨2, ![N, 512]⟩ .f32) (b : FVec Ideal ⟨1, ![N]⟩ .f32)
    (ht : (⟨2, ![N, 512]⟩ : Shape).Transposes [1, 0] ⟨2, ![512, N]⟩)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (⟨[1], [0], [0], [1], [], [], w⟩ : DotDims ⟨2, ![M, 512]⟩ ⟨2, ![512, N]⟩ ⟨2, ![M, N]⟩) none A
          (transpose ⟨2, ![512, N]⟩ [1, 0] W ht))
        (broadcastInDim ⟨2, ![M, N]⟩ ![0, 1] h2 (broadcastInDim ⟨2, ![1, N]⟩ ![1] h1 b)) (ix2 p q)
      = Cert.Gru.aff (fun t => A (ix2 p t)) (fun t => W (ix2 q t)) (b (ix1 q)) := by
  rw [addf_apply, RowAffine.dotGeneral_transposed_apply, RowAffine.vecDownRows_apply]
  rfl

/-- The host's `tanh` of an array reads `tanh` of the entry. -/
theorem hostTanh_apply {s : Shape} (x : FVec Ideal s .f32) (i : s.Idx) : Host.tanh x i = Ideal.tanh (x i) := rfl

/-- The logistic function as the reference spells it, `1 / (1 + e⁻ˣ)` with both ones scalar constants spread over the
    array. -/
def sigArr (x : FVec Ideal S2048x512 .f32) : FVec Ideal S2048x512 .f32 :=
  Host.divf (broadcastInDim S2048x512 ![] Gen.bcast_S_S2048x512 (constant S_ .f32 0x3F800000#32))
    (addf (broadcastInDim S2048x512 ![] Gen.bcast_S_S2048x512 (constant S_ .f32 0x3F800000#32)) (Host.exp (Host.negf x)))

/-- Entry by entry it IS the logistic function: the word of 1.0 denotes 1. -/
theorem sigArr_apply (x : FVec Ideal S2048x512 .f32) (i : S2048x512.Idx) : sigArr x i = Ideal.logistic (x i) := by
  show Ideal.div (Ideal.ofBits .f32 0x3F800000#32) (Ideal.ofBits .f32 0x3F800000#32 + Ideal.exp (-(x i))) = _
  rw [Ideal.ofBits_one_f32]
  rfl

/-- The three thirds of a 3·512 row, as column slices. -/
theorem slice_lo (Y : FVec Ideal S2048x1536 .f32) (h : S2048x1536.Slices ![0, 0] S2048x512) (p : Fin 2048) (q : Fin 512) :
    extractStridedSlice S2048x512 ![0, 0] Y h (ix2 p q) = Y (ix2 p (Cert.Gru.lo q)) :=
  MatrixReads.colSlice_apply 2048 1536 512 0 Y h p q _
theorem slice_mid (Y : FVec Ideal S2048x1536 .f32) (h : S2048x1536.Slices ![0, 512] S2048x512) (p : Fin 2048) (q : Fin 512) :
    extractStridedSlice S2048x512 ![0, 512] Y h (ix2 p q) = Y (ix2 p (Cert.Gru.mid q)) :=
  MatrixReads.colSlice_apply 2048 1536 512 512 Y h p q _
theorem slice_hi (Y : FVec Ideal S2048x1536 .f32) (h : S2048x1536.Slices ![0, 1024] S2048x512) (p : Fin 2048) (q : Fin 512) :
    extractStridedSlice S2048x512 ![0, 1024] Y h (ix2 p q) = Y (ix2 p (Cert.Gru.hi q)) :=
  MatrixReads.colSlice_apply 2048 1536 512 1024 Y h p q _

/-- The recurrent cell as the reference spells it on whole arrays: the input projection `X`, the hidden projection
    `G` (3·512 columns each) and the old state `h`. -/
def cellArr (X G : FVec Ideal S2048x1536 .f32) (h : FVec Ideal S2048x512 .f32) : FVec Ideal S2048x512 .f32 :=
  addf
    (mulf
      (subf (broadcastInDim S2048x512 ![] Gen.bcast_S_S2048x512 (constant S_ .f32 0x3F800000#32))
        (sigArr (addf (extractStridedSlice S2048x512 ![0, 512] X Gen.slices_S2048x1536_S2048x512_0_512)
          (extractStridedSlice S2048x512 ![0, 512] G Gen.slices_S2048x1536_S2048x512_0_512))))
      (Host.tanh
        (addf (extractStridedSlice S2048x512 ![0, 1024] X Gen.slices_S2048x1536_S2048x512_0_1024)
          (mulf
            (sigArr (addf (extractStridedSlice S2048x512 ![0, 0] X Gen.slices_S2048x1536_S2048x512_0_0)
              (extractStridedSlice S2048x512 ![0, 0] G Gen.slices_S2048x1536_S2048x512_0_0)))
            (extractStridedSlice S2048x512 ![0, 1024] G Gen.slices_S2048x1536_S2048x512_0_1024)))))
    (mulf
      (sigArr (addf (extractStridedSlice S2048x512 ![0, 512] X Gen.slices_S2048x1536_S2048x512_0_512)
        (extractStridedSlice S2048x512 ![0, 512] G Gen.slices_S2048x1536_S2048x512_0_512)))
      h)

/-- Entry `(p, q)` of the cell is the specification's gate of the three thirds of row `p` of the two projections at
    column `q` and the old entry. -/
theorem cellArr_apply (X G : FVec Ideal S2048x1536 .f32) (h : FVec Ideal S2048x512 .f32) (p : Fin 2048) (q : Fin 512) :
    cellArr X G h (ix2 p q)
      = Cert.Gru.gate (X (ix2 p (Cert.Gru.lo q))) (X (ix2 p (Cert.Gru.mid q))) (X (ix2 p (Cert.Gru.hi q)))
          (G (ix2 p (Cert.Gru.lo q))) (G (ix2 p (Cert.Gru.mid q))) (G (ix2 p (Cert.Gru.hi q))) (h (ix2 p q)) := by
  unfold cellArr
  simp only [addf_apply, mulf_apply, subf_apply, hostTanh_apply, sigArr_apply, RowAffine.scalarSpread_apply,
    slice_lo, slice_mid, slice_hi]
  rfl

/-- The gated blend as the reference spells it on whole arrays: the two gates are columns, repeated along the rows;
    `1 − gate` is taken on the column. -/
def blendArr (sm um : FVec Ideal S2048x1 .f32) (new old : FVec Ideal S2048x512 .f32) : FVec Ideal S2048x512 .f32 :=
  mulf
    (broadcastInDim S2048x512 ![0, 1] Gen.bcast_S2048x1_S2048x512_0_1
      (subf (broadcastInDim S2048x1 ![] Gen.bcast_S_S2048x1 (constant S_ .f32 0x3F800000#32)) um))
    (addf (mulf (broadcastInDim S2048x512 ![0, 1] Gen.bcast_S2048x1_S2048x512_0_1 sm) new)
      (mulf
        (broadcastInDim S2048x512 ![0, 1] Gen.bcast_S2048x1_S2048x512_0_1
          (subf (broadcastInDim S2048x1 ![] Gen.bcast_S_S2048x1 (constant S_ .f32 0x3F800000#32)) sm))
        old))

/-- Entry `(p, q)` of the blend is the specification's blend of the row's two gates, the new and the old entry. -/
theorem blendArr_apply (sm um : FVec Ideal S2048x1 .f32) (new old : FVec Ideal S2048x512 .f32) (p : Fin 2048) (q : Fin 512) :
    blendArr sm um new old (ix2 p q)
      = Cert.Gru.blend (sm (ix2 p (0 : Fin 1))) (um (ix2 p (0 : Fin 1))) (new (ix2 p q)) (old (ix2 p q)) := by
  unfold blendArr
  simp only [addf_apply, mulf_apply, subf_apply, HostForms.colMat_apply, RowAffine.scalarSpread_apply]
  rfl

/-- The step's weights as the reference's arguments hold them (a bias is a vector). -/
def wts (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal))
    (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) :
    Cert.Gru.Weights where
  Wih_u i t := x9 (ix2 i t)
  bih_u i := x10 (ix1 i)
  Whh_u i t := x11 (ix2 i t)
  bhh_u i := x12 (ix1 i)
  Whh_s i t := x7 (ix2 i t)
  bhh_s i := x8 (ix1 i)
  u2s_W j t := x13 (ix2 j t)
  u2s_b j := x14 (ix1 j)

/-! ## The reference's stages -/

/-- The user cell's input projection: the session row through `(Wᵢᵤ, bᵢᵤ)`. -/
theorem v4_at (x1 : (⟨S2048x512, .f32⟩ : BufTy).Contents (Elt Ideal)) (x9 : (⟨S1536x512, .f32⟩ : BufTy).Contents (Elt Ideal)) (x10 : (⟨S1536, .f32⟩ : BufTy).Contents (Elt Ideal)) (p : Fin 2048) (i : Fin 1536) :
    val_main_v4 (F := Ideal) x1 x9 x10 (ix2 p i)
      = Cert.Gru.aff (fun t => x1 (ix2 p t)) (fun t => x9 (ix2 i t)) (x10 (ix1 i)) := by
  unfold val_main_v4 val_main_v1 val_main_v0 val_main_v3 val_main_v2 dot_S2048x512_S512x1536_S2048x1536_1_0_0_1_n_n
  exact affine_apply _ x1 x9 x10 _ _ _ p i

/-- The user cell's hidden projection: the user row through `(Wₕᵤ, bₕᵤ)`. -/
theorem v9_at (x3 : (⟨S2048x512, .f32⟩ : BufTy).Contents (Elt Ideal)) (x11 : (⟨S1536x512, .f32⟩ : BufTy).Contents (Elt Ideal)) (x12 : (⟨S1536, .f32⟩ : BufTy).Contents (Elt Ideal)) (p : Fin 2048) (i : Fin 1536) :
    val_main_v9 (F := Ideal) x3 x11 x12 (ix2 p i)
      = Cert.Gru.aff (fun t => x3 (ix2 p t)) (fun t => x11 (ix2 i t)) (x12 (ix1 i)) := by
  unfold val_main_v9 val_main_v6 val_main_v5 val_main_v8 val_main_v7 dot_S2048x512_S512x1536_S2048x1536_1_0_0_1_n_n
  exact affine_apply _ x3 x11 x12 _ _ _ p i

/-- The user cell is the cell of those two projections and the old user state. -/
theorem v37_eq (x1 : (⟨S2048x512, .f32⟩ : BufTy).Contents (Elt Ideal)) (x3 : (⟨S2048x512, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) :
    val_main_v37 (F := Ideal) x1 x3 x9 x10 x11 x12
      = cellArr (val_main_v4 (F := Ideal) x1 x9 x10) (val_main_v9 (F := Ideal) x3 x11 x12) x3 := rfl

/-- The new user state is the blend of the cell and the old user state. -/
theorem v48_eq (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) :
    val_main_v48 (F := Ideal) x1 x2 x3 x4 x9 x10 x11 x12
      = blendArr x2 x4 (val_main_v37 (F := Ideal) x1 x3 x9 x10 x11 x12) x3 := rfl

/-- The new user state at row `p`, column `q`. -/
theorem user_at (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (q : Fin 512) :
    val_main_v48 (F := Ideal) x1 x2 x3 x4 x9 x10 x11 x12 (ix2 p q)
      = Cert.Gru.userRow (wts x7 x8 x9 x10 x11 x12 x13 x14) (fun t => x1 (ix2 p t)) (fun t => x3 (ix2 p t)) (x2 (ix2 p (0 : Fin 1))) (x4 (ix2 p (0 : Fin 1))) q := by
  rw [v48_eq, blendArr_apply, v37_eq, cellArr_apply]
  simp only [v4_at, v9_at]
  rfl

/-- Row `p` of the new user state, as a function of the column. -/
theorem user_row (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) :
    (fun t : Fin 512 => val_main_v48 (F := Ideal) x1 x2 x3 x4 x9 x10 x11 x12 (ix2 p t))
      = Cert.Gru.userRow (wts x7 x8 x9 x10 x11 x12 x13 x14) (fun t => x1 (ix2 p t)) (fun t => x3 (ix2 p t)) (x2 (ix2 p (0 : Fin 1))) (x4 (ix2 p (0 : Fin 1))) :=
  funext fun t => user_at x1 x2 x3 x4 x7 x8 x9 x10 x11 x12 x13 x14 p t

/-- The re-initialisation's projection: the new user row through `(Wᵤₛ, bᵤₛ)`. -/
theorem v53_at (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (j : Fin 512) :
    val_main_v53 (F := Ideal) x1 x2 x3 x4 x9 x10 x11 x12 x13 x14 (ix2 p j)
      = Cert.Gru.aff (fun t => val_main_v48 (F := Ideal) x1 x2 x3 x4 x9 x10 x11 x12 (ix2 p t)) (fun t => x13 (ix2 j t)) (x14 (ix1 j)) := by
  unfold val_main_v53 val_main_v50 val_main_v49 val_main_v52 val_main_v51 dot_S2048x512_S512x512_S2048x512_1_0_0_1_n_n
  exact affine_apply _ (val_main_v48 (F := Ideal) x1 x2 x3 x4 x9 x10 x11 x12) x13 x14 _ _ _ p j

/-- The re-initialised session state is the blend of `tanh` of that projection and the old session state. -/
theorem v65_eq (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) :
    val_main_v65 (F := Ideal) x1 x2 x3 x4 x9 x10 x11 x12 x13 x14
      = blendArr x2 x4 (Host.tanh (val_main_v53 (F := Ideal) x1 x2 x3 x4 x9 x10 x11 x12 x13 x14)) x1 := rfl

/-- The re-initialised session state at row `p`, column `j`. -/
theorem mid_at (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (j : Fin 512) :
    val_main_v65 (F := Ideal) x1 x2 x3 x4 x9 x10 x11 x12 x13 x14 (ix2 p j)
      = Cert.Gru.midRow (wts x7 x8 x9 x10 x11 x12 x13 x14) (fun t => x1 (ix2 p t)) (fun t => x3 (ix2 p t)) (x2 (ix2 p (0 : Fin 1))) (x4 (ix2 p (0 : Fin 1))) j := by
  rw [v65_eq, blendArr_apply, hostTanh_apply, v53_at, user_row x1 x2 x3 x4 x7 x8 x9 x10 x11 x12 x13 x14 p]
  rfl

/-- Row `p` of the re-initialised session state, as a function of the column. -/
theorem mid_row (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) :
    (fun t : Fin 512 => val_main_v65 (F := Ideal) x1 x2 x3 x4 x9 x10 x11 x12 x13 x14 (ix2 p t))
      = Cert.Gru.midRow (wts x7 x8 x9 x10 x11 x12 x13 x14) (fun t => x1 (ix2 p t)) (fun t => x3 (ix2 p t)) (x2 (ix2 p (0 : Fin 1))) (x4 (ix2 p (0 : Fin 1))) :=
  funext fun t => mid_at x1 x2 x3 x4 x7 x8 x9 x10 x11 x12 x13 x14 p t

/-- The session cell's hidden projection: the re-initialised session row through `(Wₕₛ, bₕₛ)`. -/
theorem v81_at (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (i : Fin 1536) :
    val_main_v81 (F := Ideal) x1 x2 x3 x4 x7 x8 x9 x10 x11 x12 x13 x14 (ix2 p i)
      = Cert.Gru.aff (fun t => val_main_v65 (F := Ideal) x1 x2 x3 x4 x9 x10 x11 x12 x13 x14 (ix2 p t)) (fun t => x7 (ix2 i t)) (x8 (ix1 i)) := by
  unfold val_main_v81 val_main_v78 val_main_v77 val_main_v80 val_main_v79 dot_S2048x512_S512x1536_S2048x1536_1_0_0_1_n_n
  exact affine_apply _ (val_main_v65 (F := Ideal) x1 x2 x3 x4 x9 x10 x11 x12 x13 x14) x7 x8 _ _ _ p i

/-- The new session state is the cell of the input projection (kept as the program's array), that hidden projection
    and the re-initialised session state. -/
theorem v109_eq (x0 : (⟨S2048, .i32⟩ : BufTy).Contents (Elt Ideal)) (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x5 : (⟨S1536x50000, .f32⟩ : BufTy).Contents (Elt Ideal)) (x6 : (⟨S1536, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) :
    val_main_v109 (F := Ideal) x0 x1 x2 x3 x4 x5 x6 x7 x8 x9 x10 x11 x12 x13 x14
      = cellArr (val_main_v76 (F := Ideal) x0 x5 x6) (val_main_v81 (F := Ideal) x1 x2 x3 x4 x7 x8 x9 x10 x11 x12 x13 x14)
          (val_main_v65 (F := Ideal) x1 x2 x3 x4 x9 x10 x11 x12 x13 x14) := rfl

/-- The score before its `tanh`: the new session row through the output layer. -/
theorem v114_at (x0 : (⟨S2048, .i32⟩ : BufTy).Contents (Elt Ideal)) (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x5 : (⟨S1536x50000, .f32⟩ : BufTy).Contents (Elt Ideal)) (x6 : (⟨S1536, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (x15 : (⟨S50000x512, .f32⟩ : BufTy).Contents (Elt Ideal)) (x16 : (⟨S50000, .f32⟩ : BufTy).Contents (Elt Ideal)) (p : Fin 2048) (v : Fin 50000) :
    val_main_v114 (F := Ideal) x0 x1 x2 x3 x4 x5 x6 x7 x8 x9 x10 x11 x12 x13 x14 x15 x16 (ix2 p v)
      = Cert.Gru.aff (fun t => val_main_v109 (F := Ideal) x0 x1 x2 x3 x4 x5 x6 x7 x8 x9 x10 x11 x12 x13 x14 (ix2 p t)) (fun t => x15 (ix2 v t)) (x16 (ix1 v)) := by
  unfold val_main_v114 val_main_v111 val_main_v110 val_main_v113 val_main_v112 dot_S2048x512_S512x50000_S2048x50000_1_0_0_1_n_n
  exact affine_apply _ (val_main_v109 (F := Ideal) x0 x1 x2 x3 x4 x5 x6 x7 x8 x9 x10 x11 x12 x13 x14) x15 x16 _ _ _ p v

/-- The new user state at row `p`, column `q`. -/
theorem user_ref (x0 : (⟨S2048, .i32⟩ : BufTy).Contents (Elt Ideal)) (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x5 : (⟨S1536x50000, .f32⟩ : BufTy).Contents (Elt Ideal)) (x6 : (⟨S1536, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (q : Fin 512) :
    val_main_v48 (F := Ideal) x1 x2 x3 x4 x9 x10 x11 x12 (ix2 p q)
      = Cert.Gru.userRow (wts x7 x8 x9 x10 x11 x12 x13 x14) (fun t => x1 (ix2 p t)) (fun t => x3 (ix2 p t))
          (x2 (ix2 p (0 : Fin 1))) (x4 (ix2 p (0 : Fin 1))) q := by
  exact user_at x1 x2 x3 x4 x7 x8 x9 x10 x11 x12 x13 x14 p q

/-- The new session state at row `p`, column `q`; the input projection stays the array the program computes. -/
theorem sess_ref (x0 : (⟨S2048, .i32⟩ : BufTy).Contents (Elt Ideal)) (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x5 : (⟨S1536x50000, .f32⟩ : BufTy).Contents (Elt Ideal)) (x6 : (⟨S1536, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (p : Fin 2048) (q : Fin 512) :
    val_main_v109 (F := Ideal) x0 x1 x2 x3 x4 x5 x6 x7 x8 x9 x10 x11 x12 x13 x14 (ix2 p q)
      = Cert.Gru.sessRow (wts x7 x8 x9 x10 x11 x12 x13 x14) (fun i => val_main_v76 (F := Ideal) x0 x5 x6 (ix2 p i))
          (fun t => x1 (ix2 p t)) (fun t => x3 (ix2 p t)) (x2 (ix2 p (0 : Fin 1))) (x4 (ix2 p (0 : Fin 1))) q := by
  rw [v109_eq, cellArr_apply]
  simp only [v81_at]
  rw [mid_row x1 x2 x3 x4 x7 x8 x9 x10 x11 x12 x13 x14 p, mid_at x1 x2 x3 x4 x7 x8 x9 x10 x11 x12 x13 x14 p q]
  rfl

/-- The score at row `p`, item `v`: output row `v` against the new session row. -/
theorem score_ref (x0 : (⟨S2048, .i32⟩ : BufTy).Contents (Elt Ideal)) (x1 : (⟨S2048x512, .f32⟩ : BufTy).Contents (Elt Ideal)) (x2 : (⟨S2048x1, .f32⟩ : BufTy).Contents (Elt Ideal)) (x3 : (⟨S2048x512, .f32⟩ : BufTy).Contents (Elt Ideal)) (x4 : (⟨S2048x1, .f32⟩ : BufTy).Contents (Elt Ideal)) (x5 : (⟨S1536x50000, .f32⟩ : BufTy).Contents (Elt Ideal)) (x6 : (⟨S1536, .f32⟩ : BufTy).Contents (Elt Ideal)) (x7 : (⟨S1536x512, .f32⟩ : BufTy).Contents (Elt Ideal)) (x8 : (⟨S1536, .f32⟩ : BufTy).Contents (Elt Ideal)) (x9 : (⟨S1536x512, .f32⟩ : BufTy).Contents (Elt Ideal)) (x10 : (⟨S1536, .f32⟩ : BufTy).Contents (Elt Ideal)) (x11 : (⟨S1536x512, .f32⟩ : BufTy).Contents (Elt Ideal)) (x12 : (⟨S1536, .f32⟩ : BufTy).Contents (Elt Ideal)) (x13 : (⟨S512x512, .f32⟩ : BufTy).Contents (Elt Ideal)) (x14 : (⟨S512, .f32⟩ : BufTy).Contents (Elt Ideal)) (x15 : (⟨S50000x512, .f32⟩ : BufTy).Contents (Elt Ideal)) (x16 : (⟨S50000, .f32⟩ : BufTy).Contents (Elt Ideal)) (p : Fin 2048) (v : Fin 50000) :
    val_main_v115 (F := Ideal) x0 x1 x2 x3 x4 x5 x6 x7 x8 x9 x10 x11 x12 x13 x14 x15 x16 (ix2 p v)
      = Cert.Gru.score (fun t => val_main_v109 (F := Ideal) x0 x1 x2 x3 x4 x5 x6 x7 x8 x9 x10 x11 x12 x13 x14 (ix2 p t))
          (fun t => x15 (ix2 v t)) (x16 (ix1 v)) := by
  rw [val_main_v115_apply, v114_at]
  rfl

end Cert.ReferenceIdeal.Rows

end
-- ==== Proof.Bridge.lean ====
/-
  The two programs compute one function.

  Both sides are now row functions of the step (Spec): the kernel's arrays through its two pallas_calls and the host
  operations around them, the reference's through its stages. What is left is bookkeeping. The weights record read
  off the kernel's operands (a bias laid out as a `1 × n` row) is the record read off the reference's arguments (the
  bias a vector). The input projection is ONE host computation, spelt identically in both programs. The second call
  reads the new session state through a format change (the identity), the output weight and bias through a padding
  it never reaches below row 50000, and the scores are cut back to 50000 columns.
-/
import proofs.«169456_j64295660421643_1_alg».proof.Proof.KernelRun
import proofs.«169456_j64295660421643_1_alg».proof.Proof.Boundaries
import proofs.«169456_j64295660421643_1_alg».proof.Proof.KernelArrays
import proofs.«169456_j64295660421643_1_alg».proof.Proof.RefRows
import proofs.«169456_j64295660421643_1_alg».proof.Proof.LibMatrixReads
import Idealize.ShloMosaic.Lib.KernelVsHost

set_option maxRecDepth 16384

noncomputable section

open scoped BigOperators

namespace Cert.Bridge

open Idealize.ShloMosaic Idealize.ShloMosaic.TcCoe Idealize.ShloMosaic.ValueIdx Idealize.SL.Sem

/-- The weights read off the kernel's operands are the weights read off the reference's arguments. -/
theorem wts_eq (a7 : Vec Ideal Cert.KernelIdeal.S1536x512 .f32) (a8 : Vec Ideal Cert.KernelIdeal.S1536 .f32) (a9 : Vec Ideal Cert.KernelIdeal.S1536x512 .f32)
    (a10 : Vec Ideal Cert.KernelIdeal.S1536 .f32) (a11 : Vec Ideal Cert.KernelIdeal.S1536x512 .f32) (a12 : Vec Ideal Cert.KernelIdeal.S1536 .f32)
    (a13 : Vec Ideal Cert.KernelIdeal.S512x512 .f32) (a14 : Vec Ideal Cert.KernelIdeal.S512 .f32)
    (h1 : Cert.KernelIdeal.S1536.ShapeCasts Cert.KernelIdeal.S1x1536) (h2 : Cert.KernelIdeal.S512.ShapeCasts Cert.KernelIdeal.S1x512) :
    Cert.KernelIdeal.Rows.wts a9 (shapeCast Cert.KernelIdeal.S1x1536 a10 h1) a11 (shapeCast Cert.KernelIdeal.S1x1536 a12 h1) a7
        (shapeCast Cert.KernelIdeal.S1x1536 a8 h1) a13 (shapeCast Cert.KernelIdeal.S1x512 a14 h2)
      = Cert.ReferenceIdeal.Rows.wts a7 a8 a9 a10 a11 a12 a13 a14 := by
  unfold Cert.KernelIdeal.Rows.wts Cert.ReferenceIdeal.Rows.wts
  simp only [MatrixReads.rowOfVec_apply]

/-- The input projection is one host computation in both programs. -/
theorem xproj_eq (a0 : (⟨Cert.KernelIdeal.S2048, .i32⟩ : BufTy).Contents (Elt Ideal)) (a5 : (⟨Cert.KernelIdeal.S1536x50000, .f32⟩ : BufTy).Contents (Elt Ideal))
    (a6 : (⟨Cert.KernelIdeal.S1536, .f32⟩ : BufTy).Contents (Elt Ideal)) :
    Cert.KernelIdeal.Bounds.xproj (F := Ideal) a0 a5 a6 = Cert.ReferenceIdeal.Read.val_main_v76 (F := Ideal) a0 a5 a6 := rfl

/-! ## The first call's arrays are the reference's stages of the same arguments -/

section Arrays

variable (m : (ℓ : Loc Cert.KernelIdeal.nD Cert.KernelIdeal.τ Cert.KernelIdeal.sig) → Buf (Elt Ideal) ℓ) (ρ : Dev Cert.KernelIdeal.nD → PrngReg)

/-- The new user state: the first call's second output is the reference's stage. -/
theorem user_arr (c : Dev Cert.KernelIdeal.nD) :
    (Cert.KernelIdeal.Gen.dat0 (F := Ideal) (Cert.KernelIdeal.Gen.V1 m ρ) c).arrAt 14 Cert.KernelIdeal.cfg0.N
      = Cert.ReferenceIdeal.Read.val_main_v48 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  refine funext fun (i : (⟨2, ![2048, 512]⟩ : Shape).Idx) => ?_
  obtain ⟨p, q, rfl⟩ : ∃ (p : Fin 2048) (q : Fin 512), i = ix2 p q := ⟨i 0, i 1, eq_ix2 i⟩
  rw [Cert.KernelIdeal.Arrays.user_array_apply, Cert.ReferenceIdeal.Rows.user_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) p q]
  rw [Cert.KernelIdeal.Bounds.V1_arg1 m ρ c, Cert.KernelIdeal.Bounds.V1_arg2 m ρ c, Cert.KernelIdeal.Bounds.V1_arg3 m ρ c, Cert.KernelIdeal.Bounds.V1_arg4 m ρ c, Cert.KernelIdeal.Bounds.V1_arg7 m ρ c, Cert.KernelIdeal.Bounds.V1_arg9 m ρ c, Cert.KernelIdeal.Bounds.V1_arg11 m ρ c, Cert.KernelIdeal.Bounds.V1_arg13 m ρ c, Cert.KernelIdeal.Bounds.V1_v11 m ρ c, Cert.KernelIdeal.Bounds.V1_v12 m ρ c, Cert.KernelIdeal.Bounds.V1_v13 m ρ c, Cert.KernelIdeal.Bounds.V1_v14 m ρ c, wts_eq]

/-- The new session state: the first call's first output is the reference's stage. -/
theorem sess_arr (c : Dev Cert.KernelIdeal.nD) :
    (Cert.KernelIdeal.Gen.dat0 (F := Ideal) (Cert.KernelIdeal.Gen.V1 m ρ) c).arrAt 13 Cert.KernelIdeal.cfg0.N
      = Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  refine funext fun (i : (⟨2, ![2048, 512]⟩ : Shape).Idx) => ?_
  obtain ⟨p, q, rfl⟩ : ∃ (p : Fin 2048) (q : Fin 512), i = ix2 p q := ⟨i 0, i 1, eq_ix2 i⟩
  rw [Cert.KernelIdeal.Arrays.sess_array_apply, Cert.ReferenceIdeal.Rows.sess_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) p q]
  rw [Cert.KernelIdeal.Bounds.V1_arg1 m ρ c, Cert.KernelIdeal.Bounds.V1_arg2 m ρ c, Cert.KernelIdeal.Bounds.V1_arg3 m ρ c, Cert.KernelIdeal.Bounds.V1_arg4 m ρ c, Cert.KernelIdeal.Bounds.V1_arg7 m ρ c, Cert.KernelIdeal.Bounds.V1_arg9 m ρ c, Cert.KernelIdeal.Bounds.V1_arg11 m ρ c, Cert.KernelIdeal.Bounds.V1_arg13 m ρ c, Cert.KernelIdeal.Bounds.V1_v11 m ρ c, Cert.KernelIdeal.Bounds.V1_v12 m ρ c, Cert.KernelIdeal.Bounds.V1_v13 m ρ c, Cert.KernelIdeal.Bounds.V1_v14 m ρ c, Cert.KernelIdeal.Bounds.V1_v10 m ρ c, wts_eq, xproj_eq]

end Arrays

/-! ## The scores -/

section Scores

variable (m : (ℓ : Loc Cert.KernelIdeal.nD Cert.KernelIdeal.τ Cert.KernelIdeal.sig) → Buf (Elt Ideal) ℓ) (ρ : Dev Cert.KernelIdeal.nD → PrngReg)

/-- The second call's array, cut back to 50000 columns, is the reference's score stage: at `(p, v)` both are the
    score of the new session row `p` against output row `v` — the padding rows lie at `v ≥ 50000`, past the cut. -/
theorem score_arr (c : Dev Cert.KernelIdeal.nD) (h : Cert.KernelIdeal.S2048x51200.Slices ![0, 0] Cert.KernelIdeal.S2048x50000) :
    extractStridedSlice Cert.KernelIdeal.S2048x50000 ![0, 0] ((Cert.KernelIdeal.Gen.dat1 (F := Ideal) (Cert.KernelIdeal.Gen.V7 m ρ) c).arrAt 3 Cert.KernelIdeal.cfg1.N) h
      = Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  refine funext fun (i : (⟨2, ![2048, 50000]⟩ : Shape).Idx) => ?_
  obtain ⟨p, v, rfl⟩ : ∃ (p : Fin 2048) (v : Fin 50000), i = ix2 p v := ⟨i 0, i 1, eq_ix2 i⟩
  rw [MatrixReads.slice2_apply 2048 51200 2048 50000 0 0 _ h p v (by omega) (by omega)]
  rw [Cert.KernelIdeal.Arrays.score_array_apply, Cert.ReferenceIdeal.Rows.score_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) p v]
  rw [Cert.KernelIdeal.Bounds.V7_v16 m ρ c, Cert.KernelIdeal.Bounds.V7_v18 m ρ c, Cert.KernelIdeal.Bounds.V7_v20 m ρ c, sess_arr m ρ c]
  refine congr (congr (congrArg Cert.Gru.score ?_) ?_) ?_
  · rfl
  · funext t
    exact pad_apply_of_inside (s := Cert.KernelIdeal.S50000x512) (t := Cert.KernelIdeal.S51200x512) ![0, 0] ![1200, 0] ![0, 0] (m ((c.tc : Thread Cert.KernelIdeal.nD Cert.KernelIdeal.τ).loc Cert.KernelIdeal.main_arg15))
      (sitofp (F := Ideal) FTy.f32 (constantI Cert.KernelIdeal.S_ 32 0#32)) Cert.KernelIdeal.Gen.pads_S50000x512_S51200x512_012000_000 Cert.KernelIdeal.Gen.h_S_
      (ix2 (⟨v.val + 0, by omega⟩ : Fin 51200) t) (ix2 v t) (fun a => by
        match a with
        | ⟨0, _⟩ => show v.val + 0 = 0 + v.val * (0 + 1); omega
        | ⟨1, _⟩ => show t.val = 0 + t.val * (0 + 1); omega)
  · refine (MatrixReads.rowOfVec_apply 51200 _ _ _).trans ?_
    exact pad_apply_of_inside (s := Cert.KernelIdeal.S50000) (t := Cert.KernelIdeal.S51200) ![0] ![1200] ![0] (m ((c.tc : Thread Cert.KernelIdeal.nD Cert.KernelIdeal.τ).loc Cert.KernelIdeal.main_arg16))
      (sitofp (F := Ideal) FTy.f32 (constantI Cert.KernelIdeal.S_ 32 0#32)) Cert.KernelIdeal.Gen.pads_S50000_S51200_012000 Cert.KernelIdeal.Gen.h_S_
      (ix1 (⟨v.val + 0, by omega⟩ : Fin 51200)) (ix1 v) (fun a => by
        match a with
        | ⟨0, _⟩ => show v.val + 0 = 0 + v.val * (0 + 1); omega)

end Scores

/-! ## The results -/

section Results

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- From memories that agree on the seventeen arguments, the reference's three result terms are what the kernel's
    three result buffers hold when @main returns: the scores, the new session state, the new user state. -/
theorem results (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.ReferenceIdeal.Value.res_main_v115 m' c = Cert.KernelIdeal.Gen.W9 m ρ c (Proc.devRef .tc Cert.KernelIdeal.main_v22)
    ∧ Cert.ReferenceIdeal.Value.res_main_v109 m' c = Cert.KernelIdeal.Gen.W9 m ρ c (Proc.devRef .tc Cert.KernelIdeal.main_v15_0)
    ∧ Cert.ReferenceIdeal.Value.res_main_v48 m' c = Cert.KernelIdeal.Gen.W9 m ρ c (Proc.devRef .tc Cert.KernelIdeal.main_v15_1) := by
  refine ⟨?_, ?_, ?_⟩
  · rw [Cert.ReferenceIdeal.Read.val_main_v115_eq, h0, h1, h2, h3, h4, h5, h6, h7, h8, h9, h10, h11, h12, h13, h14, h15, h16]
    exact ((Cert.KernelIdeal.Bounds.W9_v22 m ρ c).trans (score_arr m ρ c _)).symm
  · rw [Cert.ReferenceIdeal.Read.val_main_v109_eq, h0, h1, h2, h3, h4, h5, h6, h7, h8, h9, h10, h11, h12, h13, h14]
    exact ((Cert.KernelIdeal.Bounds.W9_v15_0 m ρ c).trans (sess_arr m ρ c)).symm
  · rw [Cert.ReferenceIdeal.Read.val_main_v48_eq, h1, h2, h3, h4, h9, h10, h11, h12]
    exact ((Cert.KernelIdeal.Bounds.W9_v15_1 m ρ c).trans (user_arr m ρ c)).symm

end Results

end Cert.Bridge

end
-- ==== Proof.lean ====
/-
  One step of a two-level recurrent recommender on a batch of 2048 rows: a Pallas program of two pallas_calls
  against its jnp reference, equal on the extended reals.

  The program: on the host the input projection (a column gather of the input table, plus a bias); a first call,
  tiled over 256 batch rows, that runs the user cell, the two gated blends, the session re-initialisation and the
  session cell; then the output layer as a second call tiled over 1024 batch rows × 2560 items, on a weight and bias
  padded from 50000 to 51200 items, its padding columns cut off at the end. The reference does the same step with
  whole-array operations. Every result entry depends on one batch row only, and both sides are read, entry by entry,
  as the same row functions (Proof/Spec.lean) in the same order of operations: nothing about sums or products on
  the extended reals is used, and the precondition (finite inputs) is not needed.

  The three frames: the two kernel programs' are the generated frame certificates; the reference's is its generated
  run with the results dropped. The idealization rewrote nothing, so `preserves` is trivial. For the value claim
  the kernel program's run is taken with its three result buffers named at the last boundary's contents
  (Proof/KernelRun.lean), those contents are read back through the host operations and the two calls
  (Proof/Boundaries.lean, Proof/KernelArrays.lean over Proof/KernelRows.lean), the reference's results through its
  stages (Proof/RefRows.lean), and Proof/Bridge.lean identifies the two.
-/
import proofs.«169456_j64295660421643_1_alg».proof.Defs
import proofs.«169456_j64295660421643_1_alg».proof.Proof.Gen.Kernel
import proofs.«169456_j64295660421643_1_alg».proof.Proof.Gen.Kernel.Skeleton
import proofs.«169456_j64295660421643_1_alg».proof.Proof.Gen.Kernel.Launch
import proofs.«169456_j64295660421643_1_alg».proof.Proof.Gen.Kernel.Points
import proofs.«169456_j64295660421643_1_alg».proof.Proof.Gen.Kernel.Frame
import proofs.«169456_j64295660421643_1_alg».proof.Proof.Gen.KernelIdeal
import proofs.«169456_j64295660421643_1_alg».proof.Proof.Gen.KernelIdeal.Skeleton
import proofs.«169456_j64295660421643_1_alg».proof.Proof.Gen.KernelIdeal.Launch
import proofs.«169456_j64295660421643_1_alg».proof.Proof.Gen.KernelIdeal.Points
import proofs.«169456_j64295660421643_1_alg».proof.Proof.Gen.KernelIdeal.Frame
import proofs.«169456_j64295660421643_1_alg».proof.Proof.Gen.ReferenceIdeal
import proofs.«169456_j64295660421643_1_alg».proof.Proof.Gen.Pre_finite_inputs
import proofs.«169456_j64295660421643_1_alg».proof.Proof.Gen.ReferenceIdeal.Run
import proofs.«169456_j64295660421643_1_alg».proof.Proof.Gen.ReferenceIdeal.Read
import proofs.«169456_j64295660421643_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, the three results dropped. -/
theorem frame_r : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.Value.run (F := Ideal) m ρ)

/-- Both programs run, and end with the same scores, new session state and new user state. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W9 m ρ c (Proc.devRef .tc Cert.KernelIdeal.main_v22),
    fun c => Cert.KernelIdeal.Gen.W9 m ρ c (Proc.devRef .tc Cert.KernelIdeal.main_v15_0),
    fun c => Cert.KernelIdeal.Gen.W9 m ρ c (Proc.devRef .tc Cert.KernelIdeal.main_v15_1),
    Cert.KernelIdeal.Named.run_named m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16⟩ := hagree c
  obtain ⟨e0, e1, e2⟩ := Cert.Bridge.results m ρ m' c h0 h1 h2 h3 h4 h5 h6 h7 h8 h9 h10 h11 h12 h13 h14 h15 h16
  exact ⟨(h c).1.trans e0, (h c).2.1.trans e1, (h c).2.2.1.trans e2, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
